-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4096 : Shape := ⟨3, ![8, 128, 4096]⟩
abbrev S64x128 : Shape := ⟨2, ![64, 128]⟩
abbrev S128x128 : Shape := ⟨2, ![128, 128]⟩
abbrev S_ : Shape := ⟨0, ![]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8x128x4096 .f32) (main_arg1 : FVec F S64x128 .f32) (main_arg2 : FVec F S64x128 .f32) (main_arg3 : FVec F S128x128 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8x128x4096 : Shape := ⟨3, ![8, 128, 4096]⟩
abbrev S64x128 : Shape := ⟨2, ![64, 128]⟩
abbrev S128x128 : Shape := ⟨2, ![128, 128]⟩
abbrev S_ : Shape := ⟨0, ![]⟩
abbrev S256x128 : Shape := ⟨2, ![256, 128]⟩
abbrev S8x64x4096 : Shape := ⟨3, ![8, 64, 4096]⟩
abbrev S1x128x4096 : Shape := ⟨3, ![1, 128, 4096]⟩
abbrev S1x64x4096 : Shape := ⟨3, ![1, 64, 4096]⟩
abbrev S128x4096 : Shape := ⟨2, ![128, 4096]⟩
abbrev S256x4096 : Shape := ⟨2, ![256, 4096]⟩
abbrev S64x4096 : Shape := ⟨2, ![64, 4096]⟩
abbrev S1x128x1024 : Shape := ⟨3, ![1, 128, 1024]⟩
abbrev S1x64x1024 : Shape := ⟨3, ![1, 64, 1024]⟩
abbrev S128x1024 : Shape := ⟨2, ![128, 1024]⟩
abbrev S64x1024 : Shape := ⟨2, ![64, 1024]⟩
abbrev S1024x4096 : Shape := ⟨2, ![1024, 4096]⟩
abbrev S1024 : Shape := ⟨1, ![1024]⟩
abbrev S1024x1 : Shape := ⟨2, ![1024, 1]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8x128x4096, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S256x128, .f32⟩
  | .hbm, ⟨8, _⟩ => ⟨S8x64x4096, .bf16⟩
  | .hbm, ⟨9, _⟩ => ⟨S8x64x4096, .bf16⟩
  | .hbm, ⟨10, _⟩ => ⟨S8x128x4096, .bf16⟩
  | .hbm, ⟨11, _⟩ => ⟨S8x128x4096, .f32⟩
  | .local _ .vmem, ⟨0, _⟩ => ⟨S1x128x4096, .f32⟩
  | .local _ .vmem, ⟨1, _⟩ => ⟨S1x128x4096, .f32⟩
  | .local _ .vmem, ⟨2, _⟩ => ⟨S256x128, .f32⟩
  | .local _ .vmem, ⟨3, _⟩ => ⟨S1x64x4096, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x64x4096, .bf16⟩
  | .local _ .vmem, ⟨7, _⟩ => ⟨S1x128x4096, .bf16⟩
  | .local _ .vmem, ⟨8, _⟩ => ⟨S1x128x4096, .bf16⟩
  | .local _ .vmem, ⟨9, _⟩ => ⟨S1x128x1024, .f32⟩
  | .local _ .vmem, ⟨10, _⟩ => ⟨S1x128x1024, .f32⟩
  | .local _ .vmem, ⟨11, _⟩ => ⟨S1x64x1024, .bf16⟩
  | .local _ .vmem, ⟨12, _⟩ => ⟨S1x64x1024, .bf16⟩
  | .local _ .vmem, ⟨13, _⟩ => ⟨S1x64x4096, .bf16⟩
  | .local _ .vmem, ⟨14, _⟩ => ⟨S1x64x4096, .bf16⟩
  | .local _ .vmem, ⟨15, _⟩ => ⟨S1x128x4096, .bf16⟩
  | .local _ .vmem, ⟨16, _⟩ => ⟨S1x128x4096, .bf16⟩
  | .local _ .vmem, ⟨17, _⟩ => ⟨S1x128x1024, .f32⟩
  | .local _ .vmem, ⟨18, _⟩ => ⟨S1x128x1024, .f32⟩
  | _, _ => ⟨S8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bcast_S_S64x128 : S_.BroadcastsInDim S64x128 (![] : Fin 0 → Fin S64x128.rank)
  concatenates_S64x128_S64x128_S128x128_S256x128_d0 : Shape.Concatenates [S64x128, S64x128, S128x128] S256x128 0
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x4096_o0_0_S64x4096 : S256x4096.Slices ![0, 0] S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  packedbf16_S1x64x4096_S1x64x4096_0_0_0 : (Rect.unit (s := S1x64x4096) ![0, 0, 0] S1x64x4096.size inb_S1x64x4096_S1x64x4096_0_0_0).PackedRows (EltTy.packing .bf16)
  slices_S256x4096_o64_0_S64x4096 : S256x4096.Slices ![64, 0] S64x4096
  slices_S256x4096_o128_0_S128x4096 : S256x4096.Slices ![128, 0] S128x4096
  shapeCasts_S128x4096_S1x128x4096 : S128x4096.ShapeCasts S1x128x4096
  packedbf16_S1x128x4096_S1x128x4096_0_0_0 : (Rect.unit (s := S1x128x4096) ![0, 0, 0] S1x128x4096.size inb_S1x128x4096_S1x128x4096_0_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S1024x4096_S1024 : S1024x4096.Reduces [1] S1024
  shapeCasts_S1024_S1024x1 : S1024.ShapeCasts S1024x1
  broadcasts_S1024x1_S1024x4096 : S1024x1.Broadcasts S1024x4096
  transposes_S1024x1_p1_0_S1x1024 : S1024x1.Transposes [1, 0] S1x1024
  broadcasts_S1x1024_S128x1024 : S1x1024.Broadcasts S128x1024
  shapeCasts_S128x1024_S1x128x1024 : S128x1024.ShapeCasts S1x128x1024
  dot_S256x128_S128x4096_S256x4096_1_0_0_1_n_n_wf : DotDims.WF S256x128 S128x4096 S256x4096 [1] [0] [0] [1] [] []
  dot_S64x1024_S64x4096_S1024x4096_0_0_1_1_n_n_wf : DotDims.WF S64x1024 S64x4096 S1024x4096 [0] [0] [1] [1] [] []
  dot_S128x4096_S1024x4096_S128x1024_1_1_0_0_n_n_wf : DotDims.WF S128x4096 S1024x4096 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x4096.size a
  hwx0_0 : ∀ i : grid0.Coords, EltTy.bits .f32 = 32 ∨ (Rect.block (s := S8x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x4096.size a ≤ S8x64x4096.size a
  hwx0_2 : ∀ i : grid0.Coords, EltTy.bits .bf16 = 32 ∨ (Rect.block (s := S8x64x4096) S1x64x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x4096.size a ≤ S8x64x4096.size a
  hwx0_3 : ∀ i : grid0.Coords, EltTy.bits .bf16 = 32 ∨ (Rect.block (s := S8x64x4096) S1x64x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S8x128x4096.size a
  hwx0_4 : ∀ i : grid0.Coords, EltTy.bits .bf16 = 32 ∨ (Rect.block (s := S8x128x4096) S1x128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S8x128x4096.size a
  hwx1_0 : ∀ i : grid1.Coords, EltTy.bits .f32 = 32 ∨ (Rect.block (s := S8x128x4096) S1x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1024.size a ≤ S8x64x4096.size a
  hwx1_1 : ∀ i : grid1.Coords, EltTy.bits .bf16 = 32 ∨ (Rect.block (s := S8x64x4096) S1x64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4096.size a ≤ S8x64x4096.size a
  hwx1_2 : ∀ i : grid1.Coords, EltTy.bits .bf16 = 32 ∨ (Rect.block (s := S8x64x4096) S1x64x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x4096.size a ≤ S8x128x4096.size a
  hwx1_3 : ∀ i : grid1.Coords, EltTy.bits .bf16 = 32 ∨ (Rect.block (s := S8x128x4096) S1x128x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1024.size a ≤ S8x128x4096.size a
  hwx1_4 : ∀ i : grid1.Coords, EltTy.bits .f32 = 32 ∨ (Rect.block (s := S8x128x4096) S1x128x1024.size (cc1_transform_4 i) (hinb1_4 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S64x1024_S64x4096_S1024x4096_0_0_1_1_n_n : DotDims S64x1024 S64x4096 S1024x4096 where
  lhsContracting := [0]
  rhsContracting := [0]
  lhsNonContracting := [1]
  rhsNonContracting := [1]
  lhsBatch := []
  rhsBatch := []
  wf := dot_S64x1024_S64x4096_S1024x4096_0_0_1_1_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x64x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x64x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_2) S1x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x128x4096 : Shape := ⟨3, ![8, 128, 4096]⟩
abbrev S64x128 : Shape := ⟨2, ![64, 128]⟩
abbrev S128x128 : Shape := ⟨2, ![128, 128]⟩
abbrev S8x4096x128 : Shape := ⟨3, ![8, 4096, 128]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x128x4096, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S8x4096x128, .f32⟩
  | .hbm, ⟨5, _⟩ => ⟨S8x4096x64, .f32⟩
  | .hbm, ⟨6, _⟩ => ⟨S8x4096x64, .f32⟩
  | .hbm, ⟨7, _⟩ => ⟨S8x4096x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x128, .f32⟩
  | .hbm, ⟨27, _⟩ => ⟨S8x128x4096, .f32⟩
  | .hbm, ⟨28, _⟩ => ⟨S8x128x4096, .f32⟩
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S8x128x4096_S8x4096x128_0_2_1 : S8x128x4096.Transposes [0, 2, 1] S8x4096x128
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x128_S8x128x4096_0_2_1 : S8x4096x128.Transposes [0, 2, 1] S8x128x4096
  dot_S8x4096x128_S64x128_S8x4096x64_2_1_01_0_n_n_wf : DotDims.WF S8x4096x128 S64x128 S8x4096x64 [2] [1] [0, 1] [0] [] []
  dot_S8x4096x128_S128x128_S8x4096x128_2_1_01_0_n_n_wf : DotDims.WF S8x4096x128 S128x128 S8x4096x128 [2] [1] [0, 1] [0] [] []
  dot_S8x4096x64_S8x4096x64_S8x4096x4096_2_2_1_1_0_0_wf : DotDims.WF S8x4096x64 S8x4096x64 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x128_S64x128_S8x4096x64_2_1_01_0_n_n : DotDims S8x4096x128 S64x128 S8x4096x64 where
  lhsContracting := [2]
  rhsContracting := [1]
  lhsNonContracting := [0, 1]
  rhsNonContracting := [0]
  lhsBatch := []
  rhsBatch := []
  wf := dot_S8x4096x128_S64x128_S8x4096x64_2_1_01_0_n_n_wf
def dot_S8x4096x128_S128x128_S8x4096x128_2_1_01_0_n_n : DotDims S8x4096x128 S128x128 S8x4096x128 where
  lhsContracting := [2]
  rhsContracting := [1]
  lhsNonContracting := [0, 1]
  rhsNonContracting := [0]
  lhsBatch := []
  rhsBatch := []
  wf := dot_S8x4096x128_S128x128_S8x4096x128_2_1_01_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.K.Body0.lean ====
/-
  Region 0 (the projection call): one grid point per batch entry. At point `t` the body reads the batch entry's
  [128, 4096] slab of the input and the whole stacked [256, 128] weight, forms their product once, and stores
  rows 0–63, 64–127 and 128–255 of it into the three output blocks. Each output buffer is written by ONE store
  over its whole extent, so after the body it holds that store's payload; the two inputs are left as found.
-/
import proofs.«409588_j78812649881770_3_alg».proof.Proof.Gen.Kernel.Launch
import proofs.«409588_j78812649881770_3_alg».proof.Proof.Gen.Kernel.Skeleton
import proofs.«409588_j78812649881770_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched once, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x128x4096 := Rect.unit (s := S1x128x4096) ![0, 0, 0] S1x128x4096.size inb_S1x128x4096_S1x128x4096_0_0_0
abbrev rW0 : Rect S256x128 := Rect.unit (s := S256x128) ![0, 0] S256x128.size inb_S256x128_S256x128_0_0
abbrev rQ0 : Rect S1x64x4096 := Rect.unit (s := S1x64x4096) ![0, 0, 0] S1x64x4096.size inb_S1x64x4096_S1x64x4096_0_0_0

/-! ## What the body leaves in each output buffer -/

/-- The first output block: rows 0–63 of the product. -/
def out0_2 (x0 : Vec F S1x128x4096 .f32) (x1 : Vec F S256x128 .f32) : Vec F S1x64x4096 .bf16 :=
  View.canon [⟨rQ0, k0_pay2 (View.ld x0 rX0) (View.ld x1 rW0)⟩]
/-- The second output block: rows 64–127 of the product. -/
def out0_3 (x0 : Vec F S1x128x4096 .f32) (x1 : Vec F S256x128 .f32) : Vec F S1x64x4096 .bf16 :=
  View.canon [⟨rQ0, k0_pay3 (View.ld x0 rX0) (View.ld x1 rW0)⟩]
/-- The third output block: rows 128–255 of the product. -/
def out0_4 (x0 : Vec F S1x128x4096 .f32) (x1 : Vec F S256x128 .f32) : Vec F S1x128x4096 .bf16 :=
  View.canon [⟨rX0, k0_pay4 (View.ld x0 rX0) (View.ld x1 rW0)⟩]

/-- One store over the whole buffer covers it. -/
theorem cover0_Q (p0 : Vec F S1x64x4096 .bf16) (y : S1x64x4096.Idx) :
    ∃ pc ∈ ([⟨rQ0, p0⟩] : List (View.Piece (Elt F) S1x64x4096 .bf16)), y ∈ pc.1.set :=
  View.cover_of_tiled [⟨rQ0, p0⟩] S1x64x4096.size (by rfl) y
theorem cover0_V (p0 : Vec F S1x128x4096 .bf16) (y : S1x128x4096.Idx) :
    ∃ pc ∈ ([⟨rX0, p0⟩] : List (View.Piece (Elt F) S1x128x4096 .bf16)), y ∈ pc.1.set :=
  View.cover_of_tiled [⟨rX0, p0⟩] S1x128x4096.size (by rfl) y

/-! ## The body's triple -/

set_option maxHeartbeats 1000000 in
/-- On whole staging buffers, the inputs' at contents `x0`, `x1` and the outputs' at anything, the body runs to the
    continuation holding the inputs' as they were and each output's at its payload. -/
theorem sound_kernel0 (c : Dev nD) (E : Set ℕ) (i : grid0.Coords)
    (arg1 : Memref sig .tc .vmem S1x128x4096 .f32) (harg1 : arg1.IsWhole) (arg2 : Memref sig .tc .vmem S256x128 .f32) (harg2 : arg2.IsWhole)
    (arg3 : Memref sig .tc .vmem S1x64x4096 .bf16) (harg3 : arg3.IsWhole) (arg4 : Memref sig .tc .vmem S1x64x4096 .bf16) (harg4 : arg4.IsWhole)
    (arg5 : Memref sig .tc .vmem S1x128x4096 .bf16) (harg5 : arg5.IsWhole)
    (x0 : Vec F S1x128x4096 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_Q _)
  isplitl [H3]
  · iexists _; isplitr
    swap; · iexact H3
    ipureintro
    exact View.read_writes_eq_canon _ _ _ (cover0_Q _)
  iexists _; isplitr
  swap; · iexact H4
  ipureintro
  exact View.read_writes_eq_canon _ _ _ (cover0_V _)

/-! ## The pipeline's proof data -/

/-- The proof data of the projection call on core `c`: the arrays as the region finds them; after the body at point
    `t` each input's buffer at its block and each output's at its payload of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 (the attention call): a grid of batch entry × query tile. At a point the body reads the tile's
  [128, 1024] slab of the input, the tile's [64, 1024] slab of the projected queries, and the batch entry's whole
  [64, 4096] keys and [128, 4096] values; it forms the tile's scores against every key, their row maxima, the
  exponentials of the differences, the row sums, the value-weighted sums and the residual, and stores the result
  over the whole output block. One store over the whole buffer: after the body it holds that store's payload.
-/
import proofs.«409588_j78812649881770_3_alg».proof.Proof.Gen.Kernel.Launch
import proofs.«409588_j78812649881770_3_alg».proof.Proof.Gen.Kernel.Skeleton
import proofs.«409588_j78812649881770_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S1x128x1024 := Rect.unit (s := S1x128x1024) ![0, 0, 0] S1x128x1024.size inb_S1x128x1024_S1x128x1024_0_0_0
abbrev rQ1 : Rect S1x64x1024 := Rect.unit (s := S1x64x1024) ![0, 0, 0] S1x64x1024.size inb_S1x64x1024_S1x64x1024_0_0_0
abbrev rK1 : Rect S1x64x4096 := Rect.unit (s := S1x64x4096) ![0, 0, 0] S1x64x4096.size inb_S1x64x4096_S1x64x4096_0_0_0
abbrev rV1 : Rect S1x128x4096 := Rect.unit (s := S1x128x4096) ![0, 0, 0] S1x128x4096.size inb_S1x128x4096_S1x128x4096_0_0_0

/-! ## What the body leaves in the output buffer -/

/-- The output block: the one store's payload of the four input blocks. -/
def out1_4 (x0 : Vec F S1x128x1024 .f32) (x1 : Vec F S1x64x1024 .bf16) (x2 : Vec F S1x64x4096 .bf16) (x3 : Vec F S1x128x4096 .bf16) : Vec F S1x128x1024 .f32 :=
  View.canon [⟨rX1, k1_pay1 (View.ld x0 rX1) (View.ld x1 rQ1) (View.ld x2 rK1) (View.ld x3 rV1)⟩]

/-- One store over the whole buffer covers it. -/
theorem cover1_4 (p0 : Vec F S1x128x1024 .f32) (y : S1x128x1024.Idx) :
    ∃ pc ∈ ([⟨rX1, p0⟩] : List (View.Piece (Elt F) S1x128x1024 .f32)), y ∈ pc.1.set :=
  View.cover_of_tiled [⟨rX1, p0⟩] S1x128x1024.size (by rfl) y

/-! ## The body's triple -/

set_option maxHeartbeats 1000000 in
/-- On whole staging buffers, the inputs' at contents `x0 … x3` and the output's at anything, the body runs to the
    continuation holding the inputs' as they were and the output's at its payload. -/
theorem sound_kernel1 (c : Dev nD) (E : Set ℕ) (i : grid1.Coords)
    (arg2 : Memref sig .tc .vmem S1x128x1024 .f32) (harg2 : arg2.IsWhole) (arg3 : Memref sig .tc .vmem S1x64x1024 .bf16) (harg3 : arg3.IsWhole)
    (arg4 : Memref sig .tc .vmem S1x64x4096 .bf16) (harg4 : arg4.IsWhole) (arg5 : Memref sig .tc .vmem S1x128x4096 .bf16) (harg5 : arg5.IsWhole)
    (arg6 : Memref sig .tc .vmem S1x128x1024 .f32) (harg6 : arg6.IsWhole)
    (x0 : Vec F S1x128x1024 .f32) (x1 : Vec F S1x64x1024 .bf16) (x2 : Vec F S1x64x4096 .bf16) (x3 : Vec F S1x128x4096 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the attention call on core `c`: the arrays as the region finds them; after the body at point
    `t` each input's buffer at its block and the output's at its payload of the four input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main: four host operations (the scale, its broadcast, the scaled query weight, the stacked
  weight), then the projection call, then the attention call. Between two items every unscoped buffer of the core
  is held whole at known contents: at launch the memory; after the host operations their results; after each call
  its output arrays at what its write-backs leave, every other buffer as before. Every weakly fair execution
  terminates without a fault, and at the end each unscoped buffer holds the last of these contents: the arguments
  as launched, the result array what the attention call's write-backs leave.
-/
import proofs.«409588_j78812649881770_3_alg».proof.Proof.Gen.Kernel.Launch
import proofs.«409588_j78812649881770_3_alg».proof.Proof.Gen.Kernel.Skeleton
import proofs.«409588_j78812649881770_3_alg».proof.Proof.Gen.Kernel.Points
import proofs.«409588_j78812649881770_3_alg».proof.Proof.K.Body0
import proofs.«409588_j78812649881770_3_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention call's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No host operation and no call writes an argument -/

/-- The host operations write only the scale, its broadcast, the scaled query weight and the stacked weight. -/
theorem W1_of (c : Dev nD) (b : Ref sig .tc) (hb : b ∉ ([main_cst, main_v0, main_v1, main_v2] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.nary_writes, Finset.mem_singleton]
    exact ⟨StableHlo.devRef_ne_of_ne (List.ne_of_not_mem_cons hb),
      StableHlo.devRef_ne_of_ne (List.ne_of_not_mem_cons (List.not_mem_of_not_mem_cons hb)),
      StableHlo.devRef_ne_of_ne (List.ne_of_not_mem_cons (List.not_mem_of_not_mem_cons (List.not_mem_of_not_mem_cons hb))),
      StableHlo.devRef_ne_of_ne (List.ne_of_not_mem_cons (List.not_mem_of_not_mem_cons (List.not_mem_of_not_mem_cons (List.not_mem_of_not_mem_cons hb))))⟩))

/-- The input array reaches the end as launched: both calls read it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- A weight reaches the end as launched: no call has it as a window's array. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
/-- The result array ends at what the attention call's write-backs leave. -/
theorem W3_main_v4 (c : Dev nD) : W3 m ρ c (Proc.devRef .tc main_v4) = (dat1 (V2 m ρ) c).arrAt 4 cfg1.N := W3_arr m ρ c 4

/-! ## The proof data family and the thread state -/

abbrev adm : (p : Fin 2) → (pcfgs (F := F) p).Adm := fun p => (cfgs p).toPCfg_adm
/-- Every call's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention call's write-backs leave, the
    arguments as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.Body0.lean ====
/-
  Region 0 (the projection call): one grid point per batch entry. At point `t` the body reads the batch entry's
  [128, 4096] slab of the input and the whole stacked [256, 128] weight, forms their product once, and stores
  rows 0–63, 64–127 and 128–255 of it into the three output blocks. Each output buffer is written by ONE store
  over its whole extent, so after the body it holds that store's payload; the two inputs are left as found.
-/
import proofs.«409588_j78812649881770_3_alg».proof.Proof.Gen.KernelIdeal.Launch
import proofs.«409588_j78812649881770_3_alg».proof.Proof.Gen.KernelIdeal.Skeleton
import proofs.«409588_j78812649881770_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched once, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S1x128x4096 := Rect.unit (s := S1x128x4096) ![0, 0, 0] S1x128x4096.size inb_S1x128x4096_S1x128x4096_0_0_0
abbrev rW0 : Rect S256x128 := Rect.unit (s := S256x128) ![0, 0] S256x128.size inb_S256x128_S256x128_0_0
abbrev rQ0 : Rect S1x64x4096 := Rect.unit (s := S1x64x4096) ![0, 0, 0] S1x64x4096.size inb_S1x64x4096_S1x64x4096_0_0_0

/-! ## What the body leaves in each output buffer -/

/-- The first output block: rows 0–63 of the product. -/
def out0_2 (x0 : Vec F S1x128x4096 .f32) (x1 : Vec F S256x128 .f32) : Vec F S1x64x4096 .bf16 :=
  View.canon [⟨rQ0, k0_pay2 (View.ld x0 rX0) (View.ld x1 rW0)⟩]
/-- The second output block: rows 64–127 of the product. -/
def out0_3 (x0 : Vec F S1x128x4096 .f32) (x1 : Vec F S256x128 .f32) : Vec F S1x64x4096 .bf16 :=
  View.canon [⟨rQ0, k0_pay3 (View.ld x0 rX0) (View.ld x1 rW0)⟩]
/-- The third output block: rows 128–255 of the product. -/
def out0_4 (x0 : Vec F S1x128x4096 .f32) (x1 : Vec F S256x128 .f32) : Vec F S1x128x4096 .bf16 :=
  View.canon [⟨rX0, k0_pay4 (View.ld x0 rX0) (View.ld x1 rW0)⟩]

/-- One store over the whole buffer covers it. -/
theorem cover0_Q (p0 : Vec F S1x64x4096 .bf16) (y : S1x64x4096.Idx) :
    ∃ pc ∈ ([⟨rQ0, p0⟩] : List (View.Piece (Elt F) S1x64x4096 .bf16)), y ∈ pc.1.set :=
  View.cover_of_tiled [⟨rQ0, p0⟩] S1x64x4096.size (by rfl) y
theorem cover0_V (p0 : Vec F S1x128x4096 .bf16) (y : S1x128x4096.Idx) :
    ∃ pc ∈ ([⟨rX0, p0⟩] : List (View.Piece (Elt F) S1x128x4096 .bf16)), y ∈ pc.1.set :=
  View.cover_of_tiled [⟨rX0, p0⟩] S1x128x4096.size (by rfl) y

/-! ## The body's triple -/

set_option maxHeartbeats 1000000 in
/-- On whole staging buffers, the inputs' at contents `x0`, `x1` and the outputs' at anything, the body runs to the
    continuation holding the inputs' as they were and each output's at its payload. -/
theorem sound_kernel0 (c : Dev nD) (E : Set ℕ) (i : grid0.Coords)
    (arg1 : Memref sig .tc .vmem S1x128x4096 .f32) (harg1 : arg1.IsWhole) (arg2 : Memref sig .tc .vmem S256x128 .f32) (harg2 : arg2.IsWhole)
    (arg3 : Memref sig .tc .vmem S1x64x4096 .bf16) (harg3 : arg3.IsWhole) (arg4 : Memref sig .tc .vmem S1x64x4096 .bf16) (harg4 : arg4.IsWhole)
    (arg5 : Memref sig .tc .vmem S1x128x4096 .bf16) (harg5 : arg5.IsWhole)
    (x0 : Vec F S1x128x4096 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_Q _)
  isplitl [H3]
  · iexists _; isplitr
    swap; · iexact H3
    ipureintro
    exact View.read_writes_eq_canon _ _ _ (cover0_Q _)
  iexists _; isplitr
  swap; · iexact H4
  ipureintro
  exact View.read_writes_eq_canon _ _ _ (cover0_V _)

/-! ## The pipeline's proof data -/

/-- The proof data of the projection call on core `c`: the arrays as the region finds them; after the body at point
    `t` each input's buffer at its block and each output's at its payload of the two input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 (the attention call): a grid of batch entry × query tile. At a point the body reads the tile's
  [128, 1024] slab of the input, the tile's [64, 1024] slab of the projected queries, and the batch entry's whole
  [64, 4096] keys and [128, 4096] values; it forms the tile's scores against every key, their row maxima, the
  exponentials of the differences, the row sums, the value-weighted sums and the residual, and stores the result
  over the whole output block. One store over the whole buffer: after the body it holds that store's payload.
-/
import proofs.«409588_j78812649881770_3_alg».proof.Proof.Gen.KernelIdeal.Launch
import proofs.«409588_j78812649881770_3_alg».proof.Proof.Gen.KernelIdeal.Skeleton
import proofs.«409588_j78812649881770_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S1x128x1024 := Rect.unit (s := S1x128x1024) ![0, 0, 0] S1x128x1024.size inb_S1x128x1024_S1x128x1024_0_0_0
abbrev rQ1 : Rect S1x64x1024 := Rect.unit (s := S1x64x1024) ![0, 0, 0] S1x64x1024.size inb_S1x64x1024_S1x64x1024_0_0_0
abbrev rK1 : Rect S1x64x4096 := Rect.unit (s := S1x64x4096) ![0, 0, 0] S1x64x4096.size inb_S1x64x4096_S1x64x4096_0_0_0
abbrev rV1 : Rect S1x128x4096 := Rect.unit (s := S1x128x4096) ![0, 0, 0] S1x128x4096.size inb_S1x128x4096_S1x128x4096_0_0_0

/-! ## What the body leaves in the output buffer -/

/-- The output block: the one store's payload of the four input blocks. -/
def out1_4 (x0 : Vec F S1x128x1024 .f32) (x1 : Vec F S1x64x1024 .bf16) (x2 : Vec F S1x64x4096 .bf16) (x3 : Vec F S1x128x4096 .bf16) : Vec F S1x128x1024 .f32 :=
  View.canon [⟨rX1, k1_pay1 (View.ld x0 rX1) (View.ld x1 rQ1) (View.ld x2 rK1) (View.ld x3 rV1)⟩]

/-- One store over the whole buffer covers it. -/
theorem cover1_4 (p0 : Vec F S1x128x1024 .f32) (y : S1x128x1024.Idx) :
    ∃ pc ∈ ([⟨rX1, p0⟩] : List (View.Piece (Elt F) S1x128x1024 .f32)), y ∈ pc.1.set :=
  View.cover_of_tiled [⟨rX1, p0⟩] S1x128x1024.size (by rfl) y

/-! ## The body's triple -/

set_option maxHeartbeats 1000000 in
/-- On whole staging buffers, the inputs' at contents `x0 … x3` and the output's at anything, the body runs to the
    continuation holding the inputs' as they were and the output's at its payload. -/
theorem sound_kernel1 (c : Dev nD) (E : Set ℕ) (i : grid1.Coords)
    (arg2 : Memref sig .tc .vmem S1x128x1024 .f32) (harg2 : arg2.IsWhole) (arg3 : Memref sig .tc .vmem S1x64x1024 .bf16) (harg3 : arg3.IsWhole)
    (arg4 : Memref sig .tc .vmem S1x64x4096 .bf16) (harg4 : arg4.IsWhole) (arg5 : Memref sig .tc .vmem S1x128x4096 .bf16) (harg5 : arg5.IsWhole)
    (arg6 : Memref sig .tc .vmem S1x128x1024 .f32) (harg6 : arg6.IsWhole)
    (x0 : Vec F S1x128x1024 .f32) (x1 : Vec F S1x64x1024 .bf16) (x2 : Vec F S1x64x4096 .bf16) (x3 : Vec F S1x128x4096 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the attention call on core `c`: the arrays as the region finds them; after the body at point
    `t` each input's buffer at its block and the output's at its payload of the four input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: four host operations (the scale, its broadcast, the scaled query weight, the stacked
  weight), then the projection call, then the attention call. Between two items every unscoped buffer of the core
  is held whole at known contents: at launch the memory; after the host operations their results; after each call
  its output arrays at what its write-backs leave, every other buffer as before. Every weakly fair execution
  terminates without a fault, and at the end each unscoped buffer holds the last of these contents: the arguments
  as launched, the result array what the attention call's write-backs leave.
-/
import proofs.«409588_j78812649881770_3_alg».proof.Proof.Gen.KernelIdeal.Launch
import proofs.«409588_j78812649881770_3_alg».proof.Proof.Gen.KernelIdeal.Skeleton
import proofs.«409588_j78812649881770_3_alg».proof.Proof.Gen.KernelIdeal.Points
import proofs.«409588_j78812649881770_3_alg».proof.Proof.KI.Body0
import proofs.«409588_j78812649881770_3_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the projection call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention call's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No host operation and no call writes an argument -/

/-- The host operations write only the scale, its broadcast, the scaled query weight and the stacked weight. -/
theorem W1_of (c : Dev nD) (b : Ref sig .tc) (hb : b ∉ ([main_cst, main_v0, main_v1, main_v2] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.nary_writes, Finset.mem_singleton]
    exact ⟨StableHlo.devRef_ne_of_ne (List.ne_of_not_mem_cons hb),
      StableHlo.devRef_ne_of_ne (List.ne_of_not_mem_cons (List.not_mem_of_not_mem_cons hb)),
      StableHlo.devRef_ne_of_ne (List.ne_of_not_mem_cons (List.not_mem_of_not_mem_cons (List.not_mem_of_not_mem_cons hb))),
      StableHlo.devRef_ne_of_ne (List.ne_of_not_mem_cons (List.not_mem_of_not_mem_cons (List.not_mem_of_not_mem_cons (List.not_mem_of_not_mem_cons hb))))⟩))

/-- The input array reaches the end as launched: both calls read it through an input window. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- A weight reaches the end as launched: no call has it as a window's array. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
/-- The result array ends at what the attention call's write-backs leave. -/
theorem W3_main_v4 (c : Dev nD) : W3 m ρ c (Proc.devRef .tc main_v4) = (dat1 (V2 m ρ) c).arrAt 4 cfg1.N := W3_arr m ρ c 4

/-! ## The proof data family and the thread state -/

abbrev adm : (p : Fin 2) → (pcfgs (F := F) p).Adm := fun p => (cfgs p).toPCfg_adm
/-- Every call's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The projection call over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result named: the result array ends at what the attention call's write-backs leave, the
    arguments as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.KI.Value0.lean ====
/-
  What the projection call leaves in its three output arrays, element by element at the ideal instance: entry
  (b, r, i) of each is the inner product of one row of the stacked weight with the features of position i of
  sequence b — rows 0–63 for the first array, 64–127 for the second, 128–255 for the third.
-/
import proofs.«409588_j78812649881770_3_alg».proof.Proof.KI.Body0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The input array and the stacked weight as the projection call finds them, at their literal types. -/
abbrev xA0 (c : Dev nD) : Vec Ideal S8x128x4096 .f32 := V c main_arg0
abbrev wA0 (c : Dev nD) : Vec Ideal S256x128 .f32 := V c main_v2
/-- The three output arrays after the call's last write-back, at their literal types. -/
abbrev qOut0 (c : Dev nD) : Vec Ideal S8x64x4096 .bf16 := (dat0 V c).arrAt 2 cfg0.N
abbrev kOut0 (c : Dev nD) : Vec Ideal S8x64x4096 .bf16 := (dat0 V c).arrAt 3 cfg0.N
abbrev vOut0 (c : Dev nD) : Vec Ideal S8x128x4096 .bf16 := (dat0 V c).arrAt 4 cfg0.N

/-! ## The stacked product at an index -/

/-- The product's operand indices, axis by axis: the left operand is read at (row of the result, contraction
    position), the right one at (contraction position, column of the result). -/
theorem lhs_proj_0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs_proj_1 (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem rhs_proj_0 (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem rhs_proj_1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- Entry (r, i) of the stacked product of a weight with one [1, 128, 4096] slab: row r of the weight against
    column i of the slab. Nothing rounds at the ideal instance. -/
theorem pay1_apply (x0 : Vec Ideal S1x128x4096 .f32) (x1 : Vec Ideal S256x128 .f32) (r : Fin 256) (i : Fin 4096) :
    k0_pay1 (F := Ideal) x0 x1 (ix2 r i) = ∑ e : Fin 128, x1 (ix2 r e) * x0 (ix3 (0 : Fin 1) e i) := by
  unfold k0_pay1
  refine (Ideal.matmul_constant_zero_apply dot_S256x128_S128x4096_S256x4096_1_0_0_1_n_n none _ _ (ix2 r i)).trans ?_
  rw [← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 r i) ((contrEquiv1 dot_S256x128_S128x4096_S256x4096_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S256x128_S128x4096_S256x4096_1_0_0_1_n_n.rhsIdx (ix2 r i) ((contrEquiv1 dot_S256x128_S128x4096_S256x4096_1_0_0_1_n_n 128 rfl rfl).symm k) = ix2 k i := funext fun a => Fin.ext (by
    match a with
    | ⟨0, _⟩ => exact (rhs_proj_0 _ _).trans hk
    | ⟨1, _⟩ => exact rhs_proj_1 _ _)
  rw [el, er]
  rw [truncf_apply, truncf_apply, shapeCast_self, shapeCast_1ab_ab_apply]

/-- The three stored payloads: rows 0–63, 64–127 and 128–255 of the stacked product, under a unit leading axis. -/
theorem pay2_apply (x0 : Vec Ideal S1x128x4096 .f32) (x1 : Vec Ideal S256x128 .f32) (u : Fin 1) (d : Fin 64) (i : Fin 4096) :
    k0_pay2 (F := Ideal) x0 x1 (ix3 u d i)
      = ∑ e : Fin 128, x1 (ix2 (⟨d.val, by omega⟩ : Fin 256) e) * x0 (ix3 (0 : Fin 1) e i) := by
  unfold k0_pay2
  refine (shapeCast_ab_1ab_apply _ shapeCasts_S64x4096_S1x64x4096 u d i).trans ?_
  refine (slice2_axis0_apply 0 _ slices_S256x4096_o0_0_S64x4096 d i (⟨d.val, by omega⟩ : Fin 256) (Nat.zero_add _).symm).trans ?_
  exact pay1_apply x0 x1 _ i
theorem pay3_apply (x0 : Vec Ideal S1x128x4096 .f32) (x1 : Vec Ideal S256x128 .f32) (u : Fin 1) (d : Fin 64) (i : Fin 4096) :
    k0_pay3 (F := Ideal) x0 x1 (ix3 u d i)
      = ∑ e : Fin 128, x1 (ix2 (⟨64 + d.val, by omega⟩ : Fin 256) e) * x0 (ix3 (0 : Fin 1) e i) := by
  unfold k0_pay3
  refine (shapeCast_ab_1ab_apply _ shapeCasts_S64x4096_S1x64x4096 u d i).trans ?_
  refine (slice2_axis0_apply 64 _ slices_S256x4096_o64_0_S64x4096 d i (⟨64 + d.val, by omega⟩ : Fin 256) rfl).trans ?_
  exact pay1_apply x0 x1 _ i
theorem pay4_apply (x0 : Vec Ideal S1x128x4096 .f32) (x1 : Vec Ideal S256x128 .f32) (u : Fin 1) (f : Fin 128) (i : Fin 4096) :
    k0_pay4 (F := Ideal) x0 x1 (ix3 u f i)
      = ∑ e : Fin 128, x1 (ix2 (⟨128 + f.val, by omega⟩ : Fin 256) e) * x0 (ix3 (0 : Fin 1) e i) := by
  unfold k0_pay4
  refine (shapeCast_ab_1ab_apply _ shapeCasts_S128x4096_S1x128x4096 u f i).trans ?_
  refine (slice2_axis0_apply 128 _ slices_S256x4096_o128_0_S128x4096 f i (⟨128 + f.val, by omega⟩ : Fin 256) rfl).trans ?_
  exact pay1_apply x0 x1 _ i

/-! ## From blocks to the arrays

At grid point t the body reads sequence t of the input array and the whole weight, and each output's block is
written back to position (t, 0, 0) of its array; so each output array ends holding, at (b, r, i), the entry the
body computed at point b. -/

theorem hz3 : (![0, 0, 0] : Fin 3 → Nat) = fun _ => 0 := funext fun a => by fin_cases a <;> rfl
theorem hz2 : (![0, 0] : Fin 2 → Nat) = fun _ => 0 := funext fun a => by fin_cases a <;> rfl

/-- Row r of a stacked weight W against the features of position i of sequence b of X. -/
def projAt (X : Vec Ideal S8x128x4096 .f32) (W : Vec Ideal S256x128 .f32) (b : Fin 8) (r : Fin 256) (i : Fin 4096) : EReal :=
  ∑ e : Fin 128, W (ix2 r e) * X (ix3 b e i)

/-- What the three output arrays end holding: rows 0–63, 64–127 and 128–255 of the projection. -/
abbrev qArr (X : Vec Ideal S8x128x4096 .f32) (W : Vec Ideal S256x128 .f32) : Vec Ideal S8x64x4096 .bf16 :=
  fun j => projAt X W (j 0) (⟨(j 1).val, Nat.lt_of_lt_of_le (show (j 1).val < 64 from (j 1).isLt) (by decide)⟩ : Fin 256) (j 2)
abbrev kArr (X : Vec Ideal S8x128x4096 .f32) (W : Vec Ideal S256x128 .f32) : Vec Ideal S8x64x4096 .bf16 :=
  fun j => projAt X W (j 0) (⟨64 + (j 1).val, Nat.lt_of_lt_of_le (Nat.add_lt_add_left (show (j 1).val < 64 from (j 1).isLt) 64) (by decide)⟩ : Fin 256) (j 2)
abbrev vArr (X : Vec Ideal S8x128x4096 .f32) (W : Vec Ideal S256x128 .f32) : Vec Ideal S8x128x4096 .bf16 :=
  fun j => projAt X W (j 0) (⟨128 + (j 1).val, Nat.lt_of_lt_of_le (Nat.add_lt_add_left (show (j 1).val < 128 from (j 1).isLt) 128) (by decide)⟩ : Fin 256) (j 2)

/-- The index maps over the grid: at point t the slab and the three outputs sit at block (t, 0, 0), the weight at (0, 0). -/
theorem idx_facts0 : ∀ t : Fin cfg0.N, t.val < 8
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The slab the body reads at point t is sequence t of the input array; -/
theorem iblk0_0_apply (c : Dev nD) (t : Fin cfg0.N) (ht : t.val < 8) (e : Fin 128) (i : Fin 4096) :
    iblk0 V c 0 t (ix3 (0 : Fin 1) e i) = xA0 V c (ix3 (⟨t.val, ht⟩ : Fin 8) e i) := by
  obtain ⟨-, e0, e1, e2, -⟩ := idx_facts0 t
  show V c main_arg0 (((cfg0.win 0).blk t).view.emb (ix3 (0 : Fin 1) e i)) = V c main_arg0 (ix3 (⟨t.val, ht⟩ : Fin 8) e i)
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 128 + 1 * e.val = e.val; omega
  | ⟨2, _⟩ => show win0_0.index t (2 : Fin 3) * 4096 + 1 * i.val = i.val; omega

/-- the weight's block is the whole weight. -/
theorem iblk0_1_eq (c : Dev nD) (t : Fin cfg0.N) : iblk0 V c 1 t = wA0 V c := by
  obtain ⟨-, -, -, -, e0, e1, -⟩ := idx_facts0 t
  funext y
  show V c main_v2 (((cfg0.win 1).blk t).view.emb y) = V c main_v2 y
  refine congrArg (V c main_v2) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-! ### The first output: rows 0–63 -/

/-- The first output block, entry by entry, from ANY slab that is sequence b of X. -/
theorem out2_read (x0 : Vec Ideal S1x128x4096 .f32) (x1 : Vec Ideal S256x128 .f32)
    (X : Vec Ideal S8x128x4096 .f32) (b : Fin 8) (h0 : ∀ e i, x0 (ix3 (0 : Fin 1) e i) = X (ix3 b e i))
    (j : S1x64x4096.Idx) :
    out0_2 (F := Ideal) x0 x1 j = qArr X x1 (ix3 b (j 1) (j 2)) := by
  unfold out0_2
  rw [View.canon_unit_zero hz3]
  simp only [View.ld_unit_zero (S := S1x128x4096) hz3, View.ld_unit_zero (S := S256x128) hz2]
  obtain ⟨u, d, i, rfl⟩ : ∃ (u : Fin 1) (d : Fin 64) (i : Fin 4096), j = ix3 u d i := ⟨j 0, j 1, j 2, eq_ix3 j⟩
  rw [pay2_apply]
  exact Finset.sum_congr rfl fun e _ => by rw [h0]

/-- What point t writes back to the first output is block t of the projection's rows 0–63. -/
theorem flushed2_eq (c : Dev nD) (t : Fin cfg0.N) :
    (dat0 V c).flushed 2 t = ((cfg0.win 2).blk t).view.read (Elt Ideal) (qArr (xA0 V c) (wA0 V c)) := by
  show (cfg0.win 2).cut (grid0.coords t) ((dat0 V c).after 2 t) = _
  rw [after0_2, iblk0_1_eq]
  obtain ⟨ht, -, -, -, -, -, e0, e1, e2, -⟩ := idx_facts0 t
  funext j
  show out0_2 (F := Ideal) (iblk0 V c 0 t) (wA0 V c) j = qArr (xA0 V c) (wA0 V c) (((cfg0.win 2).blk t).view.emb j)
  refine (out2_read (iblk0 V c 0 t) (wA0 V c) (xA0 V c) ⟨t.val, ht⟩ (iblk0_0_apply V c t ht) j).trans ?_
  refine congrArg (qArr (xA0 V c) (wA0 V c)) (funext fun a => Fin.ext ?_)
  match a with
  | ⟨0, _⟩ => show t.val = win0_2.index t (0 : Fin 3) * 1 + 1 * (j 0).val; have hj : (j 0).val < 1 := (j 0).isLt; omega
  | ⟨1, _⟩ => show (j 1).val = win0_2.index t (1 : Fin 3) * 64 + 1 * (j 1).val; omega
  | ⟨2, _⟩ => show (j 2).val = win0_2.index t (2 : Fin 3) * 4096 + 1 * (j 2).val; omega

/-- An index of the first output array is in point t's block iff each coordinate is in the block's range on its axis. -/
theorem mem_blk2 (t : Fin cfg0.N) (i : S8x64x4096.Idx) :
    i ∈ ((cfg0.win 2).blk t).view.set ↔ ∀ a : Fin 3, win0_2.index t a * S1x64x4096.size a ≤ (i a).val ∧ (i a).val < win0_2.index t a * S1x64x4096.size a + S1x64x4096.size a := by
  show i ∈ ((View.whole main_v3_0).slice (win0_2.rect t)).set ↔ _
  rw [View.set_slice_whole, Rect.mem_set_unit]
  exact Iff.rfl

/-- Every index of the first output array is in the block of the point of its sequence. -/
theorem cover2 (i : S8x64x4096.Idx) : ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 4096 := (i 2).isLt
  obtain ⟨t, htv⟩ : ∃ t : Fin cfg0.N, t.val = (i 0).val := ⟨⟨(i 0).val, by rw [show cfg0.N = 8 from N_0]; exact hi0⟩, rfl⟩
  obtain ⟨-, -, -, -, -, -, e0, e1, e2, -⟩ := idx_facts0 t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 4096 ≤ (i 2).val ∧ (i 2).val < win0_2.index t (2 : Fin 3) * 4096 + 4096; omega

/-- So the first output array ends holding rows 0–63 of the projection. -/
theorem qOut0_eq (c : Dev nD) : qOut0 V c = qArr (xA0 V c) (wA0 V c) :=
  (dat0 V c).arrAt_eq_of_cover 2 (qArr (xA0 V c) (wA0 V c)) (fun t _ => flushed2_eq V c t) cover2

/-! ### The second output: rows 64–127 -/

/-- The second output block, entry by entry, from ANY slab that is sequence b of X. -/
theorem out3_read (x0 : Vec Ideal S1x128x4096 .f32) (x1 : Vec Ideal S256x128 .f32)
    (X : Vec Ideal S8x128x4096 .f32) (b : Fin 8) (h0 : ∀ e i, x0 (ix3 (0 : Fin 1) e i) = X (ix3 b e i))
    (j : S1x64x4096.Idx) :
    out0_3 (F := Ideal) x0 x1 j = kArr X x1 (ix3 b (j 1) (j 2)) := by
  unfold out0_3
  rw [View.canon_unit_zero hz3]
  simp only [View.ld_unit_zero (S := S1x128x4096) hz3, View.ld_unit_zero (S := S256x128) hz2]
  obtain ⟨u, d, i, rfl⟩ : ∃ (u : Fin 1) (d : Fin 64) (i : Fin 4096), j = ix3 u d i := ⟨j 0, j 1, j 2, eq_ix3 j⟩
  rw [pay3_apply]
  exact Finset.sum_congr rfl fun e _ => by rw [h0]

/-- What point t writes back to the second output is block t of the projection's rows 64–127. -/
theorem flushed3_eq (c : Dev nD) (t : Fin cfg0.N) :
    (dat0 V c).flushed 3 t = ((cfg0.win 3).blk t).view.read (Elt Ideal) (kArr (xA0 V c) (wA0 V c)) := by
  show (cfg0.win 3).cut (grid0.coords t) ((dat0 V c).after 3 t) = _
  rw [after0_3, iblk0_1_eq]
  obtain ⟨ht, -, -, -, -, -, -, -, -, e0, e1, e2, -⟩ := idx_facts0 t
  funext j
  show out0_3 (F := Ideal) (iblk0 V c 0 t) (wA0 V c) j = kArr (xA0 V c) (wA0 V c) (((cfg0.win 3).blk t).view.emb j)
  refine (out3_read (iblk0 V c 0 t) (wA0 V c) (xA0 V c) ⟨t.val, ht⟩ (iblk0_0_apply V c t ht) j).trans ?_
  refine congrArg (kArr (xA0 V c) (wA0 V c)) (funext fun a => Fin.ext ?_)
  match a with
  | ⟨0, _⟩ => show t.val = win0_3.index t (0 : Fin 3) * 1 + 1 * (j 0).val; have hj : (j 0).val < 1 := (j 0).isLt; omega
  | ⟨1, _⟩ => show (j 1).val = win0_3.index t (1 : Fin 3) * 64 + 1 * (j 1).val; omega
  | ⟨2, _⟩ => show (j 2).val = win0_3.index t (2 : Fin 3) * 4096 + 1 * (j 2).val; omega

/-- An index of the second output array is in point t's block iff each coordinate is in the block's range on its axis. -/
theorem mem_blk3 (t : Fin cfg0.N) (i : S8x64x4096.Idx) :
    i ∈ ((cfg0.win 3).blk t).view.set ↔ ∀ a : Fin 3, win0_3.index t a * S1x64x4096.size a ≤ (i a).val ∧ (i a).val < win0_3.index t a * S1x64x4096.size a + S1x64x4096.size a := by
  show i ∈ ((View.whole main_v3_1).slice (win0_3.rect t)).set ↔ _
  rw [View.set_slice_whole, Rect.mem_set_unit]
  exact Iff.rfl

/-- Every index of the second output array is in the block of the point of its sequence. -/
theorem cover3 (i : S8x64x4096.Idx) : ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 4096 := (i 2).isLt
  obtain ⟨t, htv⟩ : ∃ t : Fin cfg0.N, t.val = (i 0).val := ⟨⟨(i 0).val, by rw [show cfg0.N = 8 from N_0]; exact hi0⟩, rfl⟩
  obtain ⟨-, -, -, -, -, -, -, -, -, e0, e1, e2, -⟩ := idx_facts0 t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 4096 ≤ (i 2).val ∧ (i 2).val < win0_3.index t (2 : Fin 3) * 4096 + 4096; omega

/-- So the second output array ends holding rows 64–127 of the projection. -/
theorem kOut0_eq (c : Dev nD) : kOut0 V c = kArr (xA0 V c) (wA0 V c) :=
  (dat0 V c).arrAt_eq_of_cover 3 (kArr (xA0 V c) (wA0 V c)) (fun t _ => flushed3_eq V c t) cover3

/-! ### The third output: rows 128–255 -/

/-- The third output block, entry by entry, from ANY slab that is sequence b of X. -/
theorem out4_read (x0 : Vec Ideal S1x128x4096 .f32) (x1 : Vec Ideal S256x128 .f32)
    (X : Vec Ideal S8x128x4096 .f32) (b : Fin 8) (h0 : ∀ e i, x0 (ix3 (0 : Fin 1) e i) = X (ix3 b e i))
    (j : S1x128x4096.Idx) :
    out0_4 (F := Ideal) x0 x1 j = vArr X x1 (ix3 b (j 1) (j 2)) := by
  unfold out0_4
  rw [View.canon_unit_zero hz3]
  simp only [View.ld_unit_zero (S := S1x128x4096) hz3, View.ld_unit_zero (S := S256x128) hz2]
  obtain ⟨u, d, i, rfl⟩ : ∃ (u : Fin 1) (d : Fin 128) (i : Fin 4096), j = ix3 u d i := ⟨j 0, j 1, j 2, eq_ix3 j⟩
  rw [pay4_apply]
  exact Finset.sum_congr rfl fun e _ => by rw [h0]

/-- What point t writes back to the third output is block t of the projection's rows 128–255. -/
theorem flushed4_eq (c : Dev nD) (t : Fin cfg0.N) :
    (dat0 V c).flushed 4 t = ((cfg0.win 4).blk t).view.read (Elt Ideal) (vArr (xA0 V c) (wA0 V c)) := by
  show (cfg0.win 4).cut (grid0.coords t) ((dat0 V c).after 4 t) = _
  rw [after0_4, iblk0_1_eq]
  obtain ⟨ht, -, -, -, -, -, -, -, -, -, -, -, e0, e1, e2⟩ := idx_facts0 t
  funext j
  show out0_4 (F := Ideal) (iblk0 V c 0 t) (wA0 V c) j = vArr (xA0 V c) (wA0 V c) (((cfg0.win 4).blk t).view.emb j)
  refine (out4_read (iblk0 V c 0 t) (wA0 V c) (xA0 V c) ⟨t.val, ht⟩ (iblk0_0_apply V c t ht) j).trans ?_
  refine congrArg (vArr (xA0 V c) (wA0 V c)) (funext fun a => Fin.ext ?_)
  match a with
  | ⟨0, _⟩ => show t.val = win0_4.index t (0 : Fin 3) * 1 + 1 * (j 0).val; have hj : (j 0).val < 1 := (j 0).isLt; omega
  | ⟨1, _⟩ => show (j 1).val = win0_4.index t (1 : Fin 3) * 128 + 1 * (j 1).val; omega
  | ⟨2, _⟩ => show (j 2).val = win0_4.index t (2 : Fin 3) * 4096 + 1 * (j 2).val; omega

/-- An index of the third output array is in point t's block iff each coordinate is in the block's range on its axis. -/
theorem mem_blk4 (t : Fin cfg0.N) (i : S8x128x4096.Idx) :
    i ∈ ((cfg0.win 4).blk t).view.set ↔ ∀ a : Fin 3, win0_4.index t a * S1x128x4096.size a ≤ (i a).val ∧ (i a).val < win0_4.index t a * S1x128x4096.size a + S1x128x4096.size a := by
  show i ∈ ((View.whole main_v3_2).slice (win0_4.rect t)).set ↔ _
  rw [View.set_slice_whole, Rect.mem_set_unit]
  exact Iff.rfl

/-- Every index of the third output array is in the block of the point of its sequence. -/
theorem cover4 (i : S8x128x4096.Idx) : ∃ t : Fin cfg0.N, (cfg0.win 4).flush t = true ∧ i ∈ ((cfg0.win 4).blk t).view.set := by
  have hi0 : (i 0).val < 8 := (i 0).isLt
  have hi1 : (i 1).val < 128 := (i 1).isLt
  have hi2 : (i 2).val < 4096 := (i 2).isLt
  obtain ⟨t, htv⟩ : ∃ t : Fin cfg0.N, t.val = (i 0).val := ⟨⟨(i 0).val, by rw [show cfg0.N = 8 from N_0]; exact hi0⟩, rfl⟩
  obtain ⟨-, -, -, -, -, -, -, -, -, -, -, -, e0, e1, e2⟩ := idx_facts0 t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

/-- So the third output array ends holding rows 128–255 of the projection. -/
theorem vOut0_eq (c : Dev nD) : vOut0 V c = vArr (xA0 V c) (wA0 V c) :=
  (dat0 V c).arrAt_eq_of_cover 4 (vArr (xA0 V c) (wA0 V c)) (fun t _ => flushed4_eq V c t) cover4

/-! ## The three arrays at an index -/

theorem qOut0_apply (c : Dev nD) (b : Fin 8) (d : Fin 64) (i : Fin 4096) :
    qOut0 V c (ix3 b d i) = ∑ e : Fin 128, wA0 V c (ix2 (⟨d.val, by omega⟩ : Fin 256) e) * xA0 V c (ix3 b e i) :=
  congrFun (qOut0_eq V c) (ix3 b d i)
theorem kOut0_apply (c : Dev nD) (b : Fin 8) (d : Fin 64) (i : Fin 4096) :
    kOut0 V c (ix3 b d i) = ∑ e : Fin 128, wA0 V c (ix2 (⟨64 + d.val, by omega⟩ : Fin 256) e) * xA0 V c (ix3 b e i) :=
  congrFun (kOut0_eq V c) (ix3 b d i)
theorem vOut0_apply (c : Dev nD) (b : Fin 8) (f : Fin 128) (i : Fin 4096) :
    vOut0 V c (ix3 b f i) = ∑ e : Fin 128, wA0 V c (ix2 (⟨128 + f.val, by omega⟩ : Fin 256) e) * xA0 V c (ix3 b e i) :=
  congrFun (vOut0_eq V c) (ix3 b f i)

end Cert.KernelIdeal.Hand

end
-- ==== Proof.Attn.Spec.lean ====
/-
  Single-head attention with a residual, over one batch of 8 sequences of 4096 positions with 128 input features:
  queries and keys are 64-dimensional projections of a position's features, values a 128-dimensional one; the score of
  query position i against key position j is their inner product times 1/8; each row of scores is turned into weights
  by subtracting its maximum, exponentiating and dividing by the row sum; the output at (feature v, position i) is the
  input there plus the weighted sum of the values' feature v.

  Two arrangements of this computation are stated here as functions of the four inputs, element by element over the
  extended reals. `outK` folds the 1/8 into the query weight before projecting, keeps the exponentials unnormalised
  through the weighted sum and multiplies by the reciprocal of the row sum afterwards. `outR` scales the scores,
  normalises the exponentials first and sums afterwards.
-/
import Idealize.ShloMosaic.PureOps.Ideal
import Idealize.ShloMosaic.Lib.ValueIdx

noncomputable section

open scoped BigOperators

namespace Cert.Attn

open Idealize.ShloMosaic

/-- The scale 1/8, as the word both programs print. -/
abbrev c8 : EReal := Ideal.ofBits .f32 0x3E000000#32
/-- The word of −∞ that both maxima start from. -/
abbrev negInf : EReal := Ideal.ofBits .f32 0xFF800000#32
/-- The word of 1 the reciprocal is taken of. -/
abbrev oneW : EReal := Ideal.ofBits .f32 0x3F800000#32
/-- The zero word the reference's row sum starts from. -/
abbrev zeroW : EReal := Ideal.ofBits .f32 0x00000000#32

/-- The maximum of a row, started from −∞. -/
def rowMax (f : Fin 4096 → EReal) : EReal := (Finset.univ : Finset (Fin 4096)).fold max negInf f

section
variable (x : Fin 8 → Fin 128 → Fin 4096 → EReal) (wq wk : Fin 64 → Fin 128 → EReal) (wv : Fin 128 → Fin 128 → EReal)

/-! ## The first arrangement -/

/-- The stacked weight: rows 0–63 the query weight times 1/8, rows 64–127 the key weight, rows 128–255 the value weight. -/
def wcat (r : Fin 256) (e : Fin 128) : EReal :=
  if h : r.val < 64 then wq ⟨r.val, h⟩ e * c8
  else if h2 : r.val < 128 then wk ⟨r.val - 64, by omega⟩ e
  else wv ⟨r.val - 128, by have := r.isLt; omega⟩ e

/-- A stacked weight `w` applied to the features of position `i` of sequence `b`: row `r` of the projection. -/
def proj (w : Fin 256 → Fin 128 → EReal) (b : Fin 8) (r : Fin 256) (i : Fin 4096) : EReal := ∑ e : Fin 128, w r e * x b e i

/-- The attention call's result from the input and ANY three projected arrays `q`, `k`, `v`. -/
def attnK (q k : Fin 8 → Fin 64 → Fin 4096 → EReal) (v : Fin 8 → Fin 128 → Fin 4096 → EReal)
    (b : Fin 8) (f : Fin 128) (i : Fin 4096) : EReal :=
  let dist : Fin 4096 → EReal := fun j => ∑ d : Fin 64, q b d i * k b d j
  let p : Fin 4096 → EReal := fun j => Ideal.exp (dist j - rowMax dist)
  x b f i + (∑ j : Fin 4096, v b f j * p j) * Ideal.div oneW (∑ j : Fin 4096, p j)

/-- The first arrangement: the three projections are rows 0–63, 64–127 and 128–255 of the stacked weight's. -/
def outK (b : Fin 8) (f : Fin 128) (i : Fin 4096) : EReal :=
  attnK x (fun b d i => proj x (wcat wq wk wv) b ⟨d.val, by omega⟩ i)
    (fun b d i => proj x (wcat wq wk wv) b ⟨64 + d.val, by omega⟩ i)
    (fun b f i => proj x (wcat wq wk wv) b ⟨128 + f.val, by omega⟩ i) b f i

/-! ## The second arrangement -/

/-- The second arrangement. -/
def outR (b : Fin 8) (f : Fin 128) (i : Fin 4096) : EReal :=
  let q : Fin 4096 → Fin 64 → EReal := fun n k => ∑ d : Fin 128, x b d n * wq k d
  let kk : Fin 4096 → Fin 64 → EReal := fun n k => ∑ d : Fin 128, x b d n * wk k d
  let vv : Fin 4096 → Fin 128 → EReal := fun n u => ∑ d : Fin 128, x b d n * wv u d
  let s : Fin 4096 → EReal := fun j => (∑ k : Fin 64, q i k * kk j k) * c8
  let e : Fin 4096 → EReal := fun j => Ideal.exp (s j - max negInf (rowMax s))
  let z : EReal := zeroW + ∑ j : Fin 4096, e j
  (∑ j : Fin 4096, Ideal.div (e j) z * vv j f) + x b f i

end

/-- Every entry of the four inputs is a real number. -/
structure Finite (x : Fin 8 → Fin 128 → Fin 4096 → EReal) (wq wk : Fin 64 → Fin 128 → EReal) (wv : Fin 128 → Fin 128 → EReal) : Prop where
  x : ∀ b d n, ∃ r : ℝ, x b d n = (r : EReal)
  wq : ∀ k d, ∃ r : ℝ, wq k d = (r : EReal)
  wk : ∀ k d, ∃ r : ℝ, wk k d = (r : EReal)
  wv : ∀ u d, ∃ r : ℝ, wv u d = (r : EReal)

end Cert.Attn

end
-- ==== Proof.KI.Value1.lean ====
/-
  What the attention call leaves in its output array, element by element at the ideal instance: entry (b, f, i) is
  the specification's attention step applied to the input and the three projected arrays as the call finds them.

  The body's payload is read at an index of the output block: the two contractions are sums over their one contracted
  axis; the row maximum and the row sum are the fold of max and the sum over the 4096 key positions; the one-column
  casts, the transpose and the two spreads move an index without changing the value. Each input block is read where
  the grid point's block index puts it in its array (batch entry t / 4, query tile t % 4), every entry of the output
  array lies in the block of one grid point, and so the array ends holding the attention step at every entry.
-/
import proofs.«409588_j78812649881770_3_alg».proof.Proof.KI.Body1
import proofs.«409588_j78812649881770_3_alg».proof.Proof.Attn.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The four arrays the attention call reads, as it finds them, at their literal types. -/
abbrev xA1 (c : Dev nD) : Vec Ideal S8x128x4096 .f32 := V c main_arg0
abbrev qA1 (c : Dev nD) : Vec Ideal S8x64x4096 .bf16 := V c main_v3_0
abbrev kA1 (c : Dev nD) : Vec Ideal S8x64x4096 .bf16 := V c main_v3_1
abbrev vA1 (c : Dev nD) : Vec Ideal S8x128x4096 .bf16 := V c main_v3_2
/-- The output array after the call's last write-back, at its literal type. -/
abbrev out1 (c : Dev nD) : Vec Ideal S8x128x4096 .f32 := (dat1 V c).arrAt 4 cfg1.N

/-! ## The two contractions read at an index -/

theorem lhsS1_0 (j : S1024x4096.Idx) (q : dot_S64x1024_S64x4096_S1024x4096_0_0_1_1_n_n.contr.Idx) :
    (dot_S64x1024_S64x4096_S1024x4096_0_0_1_1_n_n.lhsIdx j q 0).val = (q ⟨0, by decide⟩).val :=
  dot_S64x1024_S64x4096_S1024x4096_0_0_1_1_n_n.lhsIdx_val_of_single rfl j q
theorem lhsS1_1 (j : S1024x4096.Idx) (q : dot_S64x1024_S64x4096_S1024x4096_0_0_1_1_n_n.contr.Idx) :
    (dot_S64x1024_S64x4096_S1024x4096_0_0_1_1_n_n.lhsIdx j q 1).val = (j 0).val := by
  unfold DotDims.lhsIdx
  rw [dif_neg (show ¬(1 : Fin S64x1024.rank) ∈ dot_S64x1024_S64x4096_S1024x4096_0_0_1_1_n_n.lhsBatch by decide), dif_pos (show (1 : Fin S64x1024.rank) ∈ dot_S64x1024_S64x4096_S1024x4096_0_0_1_1_n_n.lhsNonContracting by decide)]
  rfl
theorem rhsS1_0 (j : S1024x4096.Idx) (q : dot_S64x1024_S64x4096_S1024x4096_0_0_1_1_n_n.contr.Idx) :
    (dot_S64x1024_S64x4096_S1024x4096_0_0_1_1_n_n.rhsIdx j q 0).val = (q ⟨0, by decide⟩).val :=
  dot_S64x1024_S64x4096_S1024x4096_0_0_1_1_n_n.rhsIdx_val_of_single rfl j q
theorem rhsS1_1 (j : S1024x4096.Idx) (q : dot_S64x1024_S64x4096_S1024x4096_0_0_1_1_n_n.contr.Idx) :
    (dot_S64x1024_S64x4096_S1024x4096_0_0_1_1_n_n.rhsIdx j q 1).val = (j 1).val := by
  unfold DotDims.rhsIdx
  rw [dif_neg (show ¬(1 : Fin S64x4096.rank) ∈ dot_S64x1024_S64x4096_S1024x4096_0_0_1_1_n_n.rhsBatch by decide), dif_pos (show (1 : Fin S64x4096.rank) ∈ dot_S64x1024_S64x4096_S1024x4096_0_0_1_1_n_n.rhsNonContracting by decide)]
  rfl

/-- The score of query position `i` against key position `j`: the inner product of the two 64-dimensional columns. -/
theorem score1_apply (a : FVec Ideal S64x1024 .bf16) (b : FVec Ideal S64x4096 .bf16) (i : Fin 1024) (j : Fin 4096) :
    matmul dot_S64x1024_S64x4096_S1024x4096_0_0_1_1_n_n none a b (constant (F := Ideal) S1024x4096 .f32 0x00000000#32) (ix2 i j)
      = ∑ d : Fin 64, a (ix2 d i) * b (ix2 d j) := by
  simp only [matmul]
  rw [Ideal.matmul_constant_zero_apply, ← Equiv.sum_comp (contrEquiv1 dot_S64x1024_S64x4096_S1024x4096_0_0_1_1_n_n 64 rfl rfl).symm]
  refine Finset.sum_congr rfl fun k _ => ?_
  have hk := contrEquiv1_symm_val dot_S64x1024_S64x4096_S1024x4096_0_0_1_1_n_n 64 rfl rfl k
  have el : dot_S64x1024_S64x4096_S1024x4096_0_0_1_1_n_n.lhsIdx (ix2 i j) ((contrEquiv1 dot_S64x1024_S64x4096_S1024x4096_0_0_1_1_n_n 64 rfl rfl).symm k) = ix2 k i := funext fun ax => Fin.ext (by
    match ax with
    | ⟨0, _⟩ => exact (lhsS1_0 _ _).trans hk
    | ⟨1, _⟩ => exact lhsS1_1 _ _)
  have er : dot_S64x1024_S64x4096_S1024x4096_0_0_1_1_n_n.rhsIdx (ix2 i j) ((contrEquiv1 dot_S64x1024_S64x4096_S1024x4096_0_0_1_1_n_n 64 rfl rfl).symm k) = ix2 k j := funext fun ax => Fin.ext (by
    match ax with
    | ⟨0, _⟩ => exact (rhsS1_0 _ _).trans hk
    | ⟨1, _⟩ => exact rhsS1_1 _ _)
  rw [el, er]

theorem lhsW1_0 (j : S128x1024.Idx) (q : dot_S128x4096_S1024x4096_S128x1024_1_1_0_0_n_n.contr.Idx) :
    (dot_S128x4096_S1024x4096_S128x1024_1_1_0_0_n_n.lhsIdx j q 0).val = (j 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem lhsW1_1 (j : S128x1024.Idx) (q : dot_S128x4096_S1024x4096_S128x1024_1_1_0_0_n_n.contr.Idx) :
    (dot_S128x4096_S1024x4096_S128x1024_1_1_0_0_n_n.lhsIdx j q 1).val = (q ⟨0, by decide⟩).val :=
  dot_S128x4096_S1024x4096_S128x1024_1_1_0_0_n_n.lhsIdx_val_of_single rfl j q
theorem rhsW1_0 (j : S128x1024.Idx) (q : dot_S128x4096_S1024x4096_S128x1024_1_1_0_0_n_n.contr.Idx) :
    (dot_S128x4096_S1024x4096_S128x1024_1_1_0_0_n_n.rhsIdx j q 0).val = (j 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem rhsW1_1 (j : S128x1024.Idx) (q : dot_S128x4096_S1024x4096_S128x1024_1_1_0_0_n_n.contr.Idx) :
    (dot_S128x4096_S1024x4096_S128x1024_1_1_0_0_n_n.rhsIdx j q 1).val = (q ⟨0, by decide⟩).val :=
  dot_S128x4096_S1024x4096_S128x1024_1_1_0_0_n_n.rhsIdx_val_of_single rfl j q

/-- The weighted sum of value feature `f` for query position `i`: over the key positions, the value times the weight. -/
theorem wsum1_apply (a : FVec Ideal S128x4096 .bf16) (b : FVec Ideal S1024x4096 .bf16) (f : Fin 128) (i : Fin 1024) :
    matmul dot_S128x4096_S1024x4096_S128x1024_1_1_0_0_n_n none a b (constant (F := Ideal) S128x1024 .f32 0x00000000#32) (ix2 f i)
      = ∑ j : Fin 4096, a (ix2 f j) * b (ix2 i j) := by
  simp only [matmul]
  rw [Ideal.matmul_constant_zero_apply, ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 f i) ((contrEquiv1 dot_S128x4096_S1024x4096_S128x1024_1_1_0_0_n_n 4096 rfl rfl).symm k) = ix2 f k := funext fun ax => Fin.ext (by
    match ax with
    | ⟨0, _⟩ => exact lhsW1_0 _ _
    | ⟨1, _⟩ => exact (lhsW1_1 _ _).trans hk)
  have er : dot_S128x4096_S1024x4096_S128x1024_1_1_0_0_n_n.rhsIdx (ix2 f i) ((contrEquiv1 dot_S128x4096_S1024x4096_S128x1024_1_1_0_0_n_n 4096 rfl rfl).symm k) = ix2 i k := funext fun ax => Fin.ext (by
    match ax with
    | ⟨0, _⟩ => exact rhsW1_0 _ _
    | ⟨1, _⟩ => exact (rhsW1_1 _ _).trans hk)
  rw [el, er]

/-! ## Columns: a vector as a one-column matrix, and a column spread over a row -/

/-- An `[a]` array cast to `[a, 1]` reads, at `(i, u)`, the operand at `i`. -/
theorem colCast1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem colSpread1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row reductions -/

/-- The maximum over a row of a `[1024, 4096]` array, started from −∞, is the specification's row maximum. -/
theorem rowMax1_apply (s : FVec Ideal S1024x4096 .f32) (i : Fin 1024) :
    multiReduction (F := Ideal) .maximumf [1] S1024 s 0xFF800000#32 reduces_S1024x4096_S1024 (.inl rfl) rfl (ix1 i)
      = Cert.Attn.rowMax (fun j => s (ix2 i j)) := by
  refine (Ideal.multiReduction_maximumf_single s 0xFF800000#32 reduces_S1024x4096_S1024 (.inl rfl) rfl (ix1 i)).trans ?_
  unfold Cert.Attn.rowMax
  have e : (s ∘ reduces_S1024x4096_S1024.lift (ix1 i)) = fun j : Fin 4096 => s (ix2 i j) :=
    funext fun k => congrArg s (funext fun ax => Fin.ext (by
      match ax with
      | ⟨0, _⟩ => rfl
      | ⟨1, _⟩ => rfl))
  rw [e]
  rfl

/-- The sum over a row of a `[1024, 4096]` array. -/
theorem rowSum1_apply (s : FVec Ideal S1024x4096 .f32) (i : Fin 1024) :
    multiReduction (F := Ideal) .add [1] S1024 s 0x00000000#32 reduces_S1024x4096_S1024 (.inl rfl) rfl (ix1 i)
      = ∑ j : Fin 4096, s (ix2 i j) := by
  refine (Ideal.multiReduction_add_single s 0x00000000#32 reduces_S1024x4096_S1024 (.inl rfl) rfl (ix1 i)).trans ?_
  refine Finset.sum_congr rfl fun k _ => congrArg s (funext fun ax => Fin.ext (by
    match ax with
    | ⟨0, _⟩ => rfl
    | ⟨1, _⟩ => rfl))

/-! ## The body's payload at an index -/

/-- An exponential at an index is the exponential of the element. -/
theorem expv1_apply {s : Shape} {φ : FTy} (a : FVec Ideal s φ) (i : s.Idx) : exp a i = Ideal.exp (a i) := rfl

/-- The tile's scores: each query column of the tile against every key column. -/
def scoreB1 (x1 : FVec Ideal S1x64x1024 .bf16) (x2 : FVec Ideal S1x64x4096 .bf16) : FVec Ideal S1024x4096 .f32 :=
  matmul dot_S64x1024_S64x4096_S1024x4096_0_0_1_1_n_n none (shapeCast S64x1024 x1 shapeCasts_S1x64x1024_S64x1024)
    (shapeCast S64x4096 x2 shapeCasts_S1x64x4096_S64x4096) (constant (F := Ideal) S1024x4096 .f32 0x00000000#32)

/-- The exponentials of the scores less their row's maximum. -/
def expB1 (x1 : FVec Ideal S1x64x1024 .bf16) (x2 : FVec Ideal S1x64x4096 .bf16) : FVec Ideal S1024x4096 .f32 :=
  exp (subf (scoreB1 x1 x2) (broadcastTo S1024x4096 (shapeCast S1024x1
    (multiReduction (F := Ideal) .maximumf [1] S1024 (scoreB1 x1 x2) 0xFF800000#32 reduces_S1024x4096_S1024 (.inl rfl) rfl)
    shapeCasts_S1024_S1024x1) broadcasts_S1024x1_S1024x4096))

/-- The reciprocals of the row sums of the exponentials, as a column. -/
def rcpB1 (x1 : FVec Ideal S1x64x1024 .bf16) (x2 : FVec Ideal S1x64x4096 .bf16) : FVec Ideal S1024x1 .f32 :=
  divf (broadcast S1024x1 (Scalar.ofBits (F := Ideal) .f32 0x3F800000#32)) (shapeCast S1024x1
    (multiReduction (F := Ideal) .add [1] S1024 (expB1 x1 x2) 0x00000000#32 reduces_S1024x4096_S1024 (.inl rfl) rfl)
    shapeCasts_S1024_S1024x1)

/-- The payload is the residual plus the value-weighted sums of the exponentials times those reciprocals. -/
theorem attnPay1_eq (x0 : FVec Ideal S1x128x1024 .f32) (x1 : FVec Ideal S1x64x1024 .bf16) (x2 : FVec Ideal S1x64x4096 .bf16)
    (x3 : FVec Ideal S1x128x4096 .bf16) :
    k1_pay1 (F := Ideal) x0 x1 x2 x3
      = shapeCast S1x128x1024 (addf (shapeCast S128x1024 x0 shapeCasts_S1x128x1024_S128x1024)
          (mulf (matmul dot_S128x4096_S1024x4096_S128x1024_1_1_0_0_n_n none (shapeCast S128x4096 x3 shapeCasts_S1x128x4096_S128x4096)
              (truncf .bf16 (expB1 x1 x2) bitsLt_bf16_f32) (constant (F := Ideal) S128x1024 .f32 0x00000000#32))
            (broadcastTo S128x1024 (transpose S1x1024 [1, 0] (rcpB1 x1 x2) transposes_S1024x1_p1_0_S1x1024) broadcasts_S1x1024_S128x1024)))
          shapeCasts_S128x1024_S1x128x1024 := rfl

/-- A score of the tile: the inner product of query column `i` and key column `j`. -/
theorem scoreB1_apply (x1 : FVec Ideal S1x64x1024 .bf16) (x2 : FVec Ideal S1x64x4096 .bf16) (i : Fin 1024) (j : Fin 4096) :
    scoreB1 x1 x2 (ix2 i j) = ∑ d : Fin 64, x1 (ix3 (0 : Fin 1) d i) * x2 (ix3 (0 : Fin 1) d j) := by
  unfold scoreB1
  rw [score1_apply]
  refine Finset.sum_congr rfl fun d _ => ?_
  rw [shapeCast_1ab_ab_apply, shapeCast_1ab_ab_apply]

/-- An exponential of the tile: of the score less the maximum of its row. -/
theorem expB1_apply (x1 : FVec Ideal S1x64x1024 .bf16) (x2 : FVec Ideal S1x64x4096 .bf16) (i : Fin 1024) (j : Fin 4096) :
    expB1 x1 x2 (ix2 i j) = Ideal.exp (scoreB1 x1 x2 (ix2 i j) - Cert.Attn.rowMax (fun j' => scoreB1 x1 x2 (ix2 i j'))) := by
  unfold expB1
  rw [expv1_apply, subf_apply, colSpread1_apply, colCast1_apply, rowMax1_apply]

/-- A reciprocal: one over the sum of row `i`'s exponentials. -/
theorem rcpB1_apply (x1 : FVec Ideal S1x64x1024 .bf16) (x2 : FVec Ideal S1x64x4096 .bf16) (i : Fin 1024) (u : Fin 1) :
    rcpB1 x1 x2 (ix2 i u) = Ideal.div Cert.Attn.oneW (∑ j : Fin 4096, expB1 x1 x2 (ix2 i j)) := by
  unfold rcpB1
  rw [divf_apply, broadcast_apply, colCast1_apply, rowSum1_apply]
  rfl

/-- The payload at an index of the output block. -/
theorem attnPay1_apply (x0 : FVec Ideal S1x128x1024 .f32) (x1 : FVec Ideal S1x64x1024 .bf16) (x2 : FVec Ideal S1x64x4096 .bf16)
    (x3 : FVec Ideal S1x128x4096 .bf16) (u : Fin 1) (f : Fin 128) (i : Fin 1024) :
    k1_pay1 (F := Ideal) x0 x1 x2 x3 (ix3 u f i)
      = x0 (ix3 (0 : Fin 1) f i) + (∑ j : Fin 4096, x3 (ix3 (0 : Fin 1) f j) * expB1 x1 x2 (ix2 i j))
          * Ideal.div Cert.Attn.oneW (∑ j : Fin 4096, expB1 x1 x2 (ix2 i j)) := by
  rw [attnPay1_eq, shapeCast_ab_1ab_apply, addf_apply, mulf_apply, shapeCast_1ab_ab_apply, wsum1_apply, broadcastTo_1b_ab_apply,
    transpose_ix2_apply, rcpB1_apply]
  refine congrArg (fun s => x0 (ix3 (0 : Fin 1) f i) + s * _) (Finset.sum_congr rfl fun j _ => ?_)
  rw [shapeCast_1ab_ab_apply, truncf_apply]

/-- The payload at an index is the specification's attention step, once each block's entries it reads are entries of
    four arrays `X`, `Q`, `K`, `W` at batch entry `b` and, for the tile's column `i`, position `n`. -/
theorem attnPay1_attn (x0 : FVec Ideal S1x128x1024 .f32) (x1 : FVec Ideal S1x64x1024 .bf16) (x2 : FVec Ideal S1x64x4096 .bf16)
    (x3 : FVec Ideal S1x128x4096 .bf16) (X : Fin 8 → Fin 128 → Fin 4096 → EReal) (Q K : Fin 8 → Fin 64 → Fin 4096 → EReal)
    (W : Fin 8 → Fin 128 → Fin 4096 → EReal) (u : Fin 1) (f : Fin 128) (i : Fin 1024) (b : Fin 8) (n : Fin 4096)
    (hx : x0 (ix3 (0 : Fin 1) f i) = X b f n) (hq : ∀ d : Fin 64, x1 (ix3 (0 : Fin 1) d i) = Q b d n)
    (hk : ∀ (d : Fin 64) (j : Fin 4096), x2 (ix3 (0 : Fin 1) d j) = K b d j)
    (hv : ∀ j : Fin 4096, x3 (ix3 (0 : Fin 1) f j) = W b f j) :
    k1_pay1 (F := Ideal) x0 x1 x2 x3 (ix3 u f i) = Cert.Attn.attnK X Q K W b f n := by
  have hs : ∀ j : Fin 4096, scoreB1 x1 x2 (ix2 i j) = ∑ d : Fin 64, Q b d n * K b d j := fun j => by
    rw [scoreB1_apply]
    exact Finset.sum_congr rfl fun d _ => by rw [hq, hk]
  have hsf : (fun j' : Fin 4096 => scoreB1 x1 x2 (ix2 i j')) = fun j' => ∑ d : Fin 64, Q b d n * K b d j' := funext hs
  have he : ∀ j : Fin 4096, expB1 x1 x2 (ix2 i j)
      = Ideal.exp ((∑ d : Fin 64, Q b d n * K b d j) - Cert.Attn.rowMax (fun j' => ∑ d : Fin 64, Q b d n * K b d j')) := fun j => by
    rw [expB1_apply, hsf, hs]
  rw [attnPay1_apply, hx]
  unfold Cert.Attn.attnK
  dsimp only
  refine congrArg₂ (fun s z => X b f n + s * Ideal.div Cert.Attn.oneW z) (Finset.sum_congr rfl fun j _ => ?_)
    (Finset.sum_congr rfl fun j _ => ?_)
  · rw [hv, he]
  · rw [he]

/-! ## From blocks to the array -/

theorem hz3_1 : (![0, 0, 0] : Fin 3 → Nat) = fun _ => 0 := funext fun a => by fin_cases a <;> rfl

/-- The index maps over the grid: at point `t` the batch entry is `t / 4` and the query tile `t % 4`; the input and
    the queries move with the output, the keys and the values with the batch entry alone. -/
theorem idx_facts1 : ∀ t : Fin cfg1.N,
    win1_4.index t (0 : Fin 3) = t.val / 4 ∧ win1_4.index t (1 : Fin 3) = 0 ∧ win1_4.index t (2 : Fin 3) = t.val % 4
    ∧ win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = t.val % 4
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0 :=
  (by decide +kernel : ∀ t : Fin grid1.N, _)

/-- The input's block at point `t`: features by the tile's positions of batch entry `t / 4`. -/
theorem xblk1_apply (c : Dev nD) (t : Fin cfg1.N) (u : Fin 1) (f : Fin 128) (i : Fin 1024) (b : Fin 8) (n : Fin 4096)
    (hb : b.val = t.val / 4) (hn : n.val = 1024 * (t.val % 4) + i.val) :
    (iblk1 V c 0 t : Vec Ideal S1x128x1024 .f32) (ix3 u f i) = xA1 V c (ix3 b f n) := by
  obtain ⟨-, -, -, e0, e1, e2, -⟩ := idx_facts1 t
  unfold iblk1
  rw [View.read_apply]
  show V c main_arg0 _ = V c main_arg0 _
  congr 1
  funext a
  apply Fin.ext
  match a with
  | ⟨0, _⟩ => show win1_0.index t 0 * 1 + 1 * u.val = b.val; rw [e0, hb]; omega
  | ⟨1, _⟩ => show win1_0.index t 1 * 128 + 1 * f.val = f.val; rw [e1]; omega
  | ⟨2, _⟩ => show win1_0.index t 2 * 1024 + 1 * i.val = n.val; rw [e2, hn]; omega

/-- The queries' block at point `t`. -/
theorem qblk1_apply (c : Dev nD) (t : Fin cfg1.N) (u : Fin 1) (d : Fin 64) (i : Fin 1024) (b : Fin 8) (n : Fin 4096)
    (hb : b.val = t.val / 4) (hn : n.val = 1024 * (t.val % 4) + i.val) :
    (iblk1 V c 1 t : Vec Ideal S1x64x1024 .bf16) (ix3 u d i) = qA1 V c (ix3 b d n) := by
  obtain ⟨-, -, -, -, -, -, e0, e1, e2, -⟩ := idx_facts1 t
  unfold iblk1
  rw [View.read_apply]
  show V c main_v3_0 _ = V c main_v3_0 _
  congr 1
  funext a
  apply Fin.ext
  match a with
  | ⟨0, _⟩ => show win1_1.index t 0 * 1 + 1 * u.val = b.val; rw [e0, hb]; omega
  | ⟨1, _⟩ => show win1_1.index t 1 * 64 + 1 * d.val = d.val; rw [e1]; omega
  | ⟨2, _⟩ => show win1_1.index t 2 * 1024 + 1 * i.val = n.val; rw [e2, hn]; omega

/-- The keys' block at point `t`: all of batch entry `t / 4`. -/
theorem kblk1_apply (c : Dev nD) (t : Fin cfg1.N) (u : Fin 1) (d : Fin 64) (j : Fin 4096) (b : Fin 8)
    (hb : b.val = t.val / 4) :
    (iblk1 V c 2 t : Vec Ideal S1x64x4096 .bf16) (ix3 u d j) = kA1 V c (ix3 b d j) := by
  obtain ⟨-, -, -, -, -, -, -, -, -, e0, e1, e2, -⟩ := idx_facts1 t
  unfold iblk1
  rw [View.read_apply]
  show V c main_v3_1 _ = V c main_v3_1 _
  congr 1
  funext a
  apply Fin.ext
  match a with
  | ⟨0, _⟩ => show win1_2.index t 0 * 1 + 1 * u.val = b.val; rw [e0, hb]; omega
  | ⟨1, _⟩ => show win1_2.index t 1 * 64 + 1 * d.val = d.val; rw [e1]; omega
  | ⟨2, _⟩ => show win1_2.index t 2 * 4096 + 1 * j.val = j.val; rw [e2]; omega

/-- The values' block at point `t`: all of batch entry `t / 4`. -/
theorem vblk1_apply (c : Dev nD) (t : Fin cfg1.N) (u : Fin 1) (f : Fin 128) (j : Fin 4096) (b : Fin 8)
    (hb : b.val = t.val / 4) :
    (iblk1 V c 3 t : Vec Ideal S1x128x4096 .bf16) (ix3 u f j) = vA1 V c (ix3 b f j) := by
  obtain ⟨-, -, -, -, -, -, -, -, -, -, -, -, e0, e1, e2⟩ := idx_facts1 t
  unfold iblk1
  rw [View.read_apply]
  show V c main_v3_2 _ = V c main_v3_2 _
  congr 1
  funext a
  apply Fin.ext
  match a with
  | ⟨0, _⟩ => show win1_3.index t 0 * 1 + 1 * u.val = b.val; rw [e0, hb]; omega
  | ⟨1, _⟩ => show win1_3.index t 1 * 128 + 1 * f.val = f.val; rw [e1]; omega
  | ⟨2, _⟩ => show win1_3.index t 2 * 4096 + 1 * j.val = j.val; rw [e2]; omega

/-- What the output array ends holding: the specification's attention step of the four arrays, entry by entry. -/
def attnArr1 (c : Dev nD) : Vec Ideal S8x128x4096 .f32 := fun y =>
  Cert.Attn.attnK (fun b d n => xA1 V c (ix3 b d n)) (fun b d n => qA1 V c (ix3 b d n)) (fun b d n => kA1 V c (ix3 b d n))
    (fun b u n => vA1 V c (ix3 b u n)) ⟨(y 0).val, (y 0).isLt⟩ ⟨(y 1).val, (y 1).isLt⟩ ⟨(y 2).val, (y 2).isLt⟩

/-- What point `t` writes back is its block of that array. -/
theorem flushed1_eq (c : Dev nD) (t : Fin cfg1.N) :
    (dat1 V c).flushed 4 t = ((cfg1.win 4).blk t).view.read (Elt Ideal) (attnArr1 V c) := by
  show (cfg1.win 4).cut (grid1.coords t) ((dat1 V c).after 4 t) = _
  rw [after1_4]
  unfold out1_4
  rw [View.canon_unit_zero hz3_1]
  simp only [View.ld_unit_zero (S := S1x128x1024) hz3_1, View.ld_unit_zero (S := S1x64x1024) hz3_1, View.ld_unit_zero (S := S1x64x4096) hz3_1, View.ld_unit_zero (S := S1x128x4096) hz3_1]
  funext y
  obtain ⟨u, f, i, rfl⟩ : ∃ (u : Fin 1) (f : Fin 128) (i : Fin 1024), y = ix3 u f i := ⟨y 0, y 1, y 2, eq_ix3 y⟩
  have ht : t.val < 32 := t.isLt
  obtain ⟨e0, e1, e2, -⟩ := idx_facts1 t
  have hb : t.val / 4 < 8 := by omega
  have hn : 1024 * (t.val % 4) + i.val < 4096 := by omega
  refine (attnPay1_attn (iblk1 V c 0 t) (iblk1 V c 1 t) (iblk1 V c 2 t) (iblk1 V c 3 t)
    (fun b d n => xA1 V c (ix3 b d n)) (fun b d n => qA1 V c (ix3 b d n)) (fun b d n => kA1 V c (ix3 b d n))
    (fun b u n => vA1 V c (ix3 b u n)) u f i ⟨t.val / 4, hb⟩ ⟨1024 * (t.val % 4) + i.val, hn⟩
    (xblk1_apply V c t 0 f i _ _ rfl rfl) (fun d => qblk1_apply V c t 0 d i _ _ rfl rfl)
    (fun d j => kblk1_apply V c t 0 d j _ rfl) (fun j => vblk1_apply V c t 0 f j _ rfl)).trans ?_
  rw [View.read_apply]
  have hemb : ((View.whole main_v4).slice ((win1 4).rect t)).emb (ix3 u f i)
      = ix3 (⟨t.val / 4, hb⟩ : Fin 8) f (⟨1024 * (t.val % 4) + i.val, hn⟩ : Fin 4096) := funext fun a => Fin.ext (by
    match a with
    | ⟨0, _⟩ => show win1_4.index t 0 * 1 + 1 * u.val = t.val / 4; rw [e0]; omega
    | ⟨1, _⟩ => show win1_4.index t 1 * 128 + 1 * f.val = f.val; rw [e1]; omega
    | ⟨2, _⟩ => show win1_4.index t 2 * 1024 + 1 * i.val = 1024 * (t.val % 4) + i.val; rw [e2]; omega)
  rw [hemb]
  rfl

/-- Every entry of the output array is in some point's block: entry `(b, ·, n)` in that of point `4 b + n / 1024`. -/
theorem cover1 (y : S8x128x4096.Idx) :
    ∃ t : Fin cfg1.N, (cfg1.win 4).flush t = true ∧ y ∈ ((cfg1.win 4).blk t).view.set := by
  have h0 : (y 0).val < 8 := (y 0).isLt
  have h1 : (y 1).val < 128 := (y 1).isLt
  have h2 : (y 2).val < 4096 := (y 2).isLt
  obtain ⟨t, htv⟩ : ∃ t : Fin cfg1.N, t.val = 4 * (y 0).val + (y 2).val / 1024 :=
    ⟨⟨4 * (y 0).val + (y 2).val / 1024, by show _ < 32; omega⟩, rfl⟩
  obtain ⟨e0, e1, e2, -⟩ := idx_facts1 t
  refine ⟨t, flush1_4 t, ?_⟩
  show y ∈ ((View.whole main_v4).slice (win1_4.rect t)).set
  rw [View.set_slice_whole, Rect.mem_set_unit]
  intro a
  match a with
  | ⟨0, _⟩ => show win1_4.index t (0 : Fin 3) * 1 ≤ (y 0).val ∧ (y 0).val < win1_4.index t (0 : Fin 3) * 1 + 1; rw [e0, htv]; omega
  | ⟨1, _⟩ => show win1_4.index t (1 : Fin 3) * 128 ≤ (y 1).val ∧ (y 1).val < win1_4.index t (1 : Fin 3) * 128 + 128; rw [e1]; omega
  | ⟨2, _⟩ => show win1_4.index t (2 : Fin 3) * 1024 ≤ (y 2).val ∧ (y 2).val < win1_4.index t (2 : Fin 3) * 1024 + 1024; rw [e2, htv]; omega

/-- So the output array ends holding the attention step of the four arrays. -/
theorem final1 (c : Dev nD) : out1 V c = attnArr1 V c :=
  (dat1 V c).arrAt_eq_of_cover 4 (attnArr1 V c) (fun t _ => flushed1_eq V c t) cover1

theorem out1_apply (c : Dev nD) (b : Fin 8) (f : Fin 128) (i : Fin 4096) :
    out1 V c (ix3 b f i)
      = Cert.Attn.attnK (fun b d n => xA1 V c (ix3 b d n)) (fun b d n => qA1 V c (ix3 b d n)) (fun b d n => kA1 V c (ix3 b d n))
          (fun b u n => vA1 V c (ix3 b u n)) b f i := by
  rw [final1]
  rfl

end Cert.KernelIdeal.Hand

end
-- ==== Proof.KI.HostW.lean ====
/-
  What the four host operations leave in the stacked weight's buffer, element by element at the ideal instance:
  rows 0–63 the query weight times 1/8, rows 64–127 the key weight, rows 128–255 the value weight.
-/
import proofs.«409588_j78812649881770_3_alg».proof.Proof.Gen.KernelIdeal.Launch
import proofs.«409588_j78812649881770_3_alg».proof.Proof.Attn.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The stacked weight's buffer after the four host operations, as one term of the three argument buffers: the
    concatenation along the rows of the query weight times the constant 1/8 broadcast over its shape, the key weight
    and the value weight. -/
theorem hostW_term (W : Valuation τ sig (Elt Ideal)) :
    (StableHlo.after hostOps0 W (Proc.devRef .tc main_v2) : Vec Ideal S256x128 .f32)
      = concatenate S256x128 0
          [⟨S64x128, mulf (W (Proc.devRef .tc main_arg1) : Vec Ideal S64x128 .f32)
              (broadcastInDim S64x128 ![] bcast_S_S64x128 (constant (F := Ideal) S_ .f32 0x3E000000#32))⟩,
           ⟨S64x128, (W (Proc.devRef .tc main_arg2) : Vec Ideal S64x128 .f32)⟩,
           ⟨S128x128, (W (Proc.devRef .tc main_arg3) : Vec Ideal S128x128 .f32)⟩]
          concatenates_S64x128_S64x128_S128x128_S256x128_d0 := by
  dsimp only [hostOps0]
  after_results
  rfl

/-- Three pieces of 64, 64 and 128 rows laid end to end along the rows, read at row `r` and column `e`: a row below
    64 lies in the first piece at the same row; a row from 64 and below 128 lies in the second piece, 64 rows up
    (the extent before it is 64); any other row lies in the third piece, 128 rows up (the extents before it sum to
    64 + 64 = 128). The column is the same in every case, the pieces being laid along the rows only. -/
theorem cat3_apply {α : Type} (x1 x2 : S64x128.Idx → α) (x3 : S128x128.Idx → α) (r : Fin 256) (e : Fin 128) :
    concatenate S256x128 0 [⟨S64x128, x1⟩, ⟨S64x128, x2⟩, ⟨S128x128, x3⟩]
        concatenates_S64x128_S64x128_S128x128_S256x128_d0 (ix2 r e)
      = if h : r.val < 64 then x1 (ix2 ⟨r.val, h⟩ e)
        else if h2 : r.val < 128 then x2 (ix2 ⟨r.val - 64, by omega⟩ e)
        else x3 (ix2 ⟨r.val - 128, by have := r.isLt; omega⟩ e) := by
  split
  · next h =>
    -- piece 0, nothing before it: 0 + r = r
    refine concatenate_apply_piece (0 : Fin S256x128.rank) [⟨S64x128, x1⟩, ⟨S64x128, x2⟩, ⟨S128x128, x3⟩]
      concatenates_S64x128_S64x128_S128x128_S256x128_d0 (ix2 r e) 0 (show 0 < 3 by omega) S64x128 x1 rfl rfl 0 rfl
      (ix2 ⟨r.val, h⟩ e) (fun b hb => ?_) ?_
    · match b with
      | ⟨0, _⟩ => exact absurd rfl hb
      | ⟨1, _⟩ => rfl
    · show 0 + r.val = r.val
      omega
  · next h =>
    split
    · next h2 =>
      -- piece 1, 64 rows before it: 64 + (r - 64) = r as 64 ≤ r
      refine concatenate_apply_piece (0 : Fin S256x128.rank) [⟨S64x128, x1⟩, ⟨S64x128, x2⟩, ⟨S128x128, x3⟩]
        concatenates_S64x128_S64x128_S128x128_S256x128_d0 (ix2 r e) 1 (show 1 < 3 by omega) S64x128 x2 rfl rfl 64 rfl
        (ix2 ⟨r.val - 64, by omega⟩ e) (fun b hb => ?_) ?_
      · match b with
        | ⟨0, _⟩ => exact absurd rfl hb
        | ⟨1, _⟩ => rfl
      · show 64 + (r.val - 64) = r.val
        omega
    · next h2 =>
      -- piece 2, 128 rows before it: 128 + (r - 128) = r as 128 ≤ r
      refine concatenate_apply_piece (0 : Fin S256x128.rank) [⟨S64x128, x1⟩, ⟨S64x128, x2⟩, ⟨S128x128, x3⟩]
        concatenates_S64x128_S64x128_S128x128_S256x128_d0 (ix2 r e) 2 (show 2 < 3 by omega) S128x128 x3 rfl rfl 128 rfl
        (ix2 ⟨r.val - 128, by have := r.isLt; omega⟩ e) (fun b hb => ?_) ?_
      · match b with
        | ⟨0, _⟩ => exact absurd rfl hb
        | ⟨1, _⟩ => rfl
      · show 128 + (r.val - 128) = r.val
        omega

/-- The stacked weight element by element: in the first 64 rows the product is taken entry by entry, and the scalar
    constant broadcast over the query weight's shape reads 1/8 at every index; the other rows are the key and the
    value weight's own entries. -/
theorem hostW_apply (W : Valuation τ sig (Elt Ideal)) (r : Fin 256) (e : Fin 128) :
    (StableHlo.after hostOps0 W (Proc.devRef .tc main_v2) : Vec Ideal S256x128 .f32) (ix2 r e)
      = Cert.Attn.wcat (fun k d => (W (Proc.devRef .tc main_arg1) : Vec Ideal S64x128 .f32) (ix2 k d))
          (fun k d => (W (Proc.devRef .tc main_arg2) : Vec Ideal S64x128 .f32) (ix2 k d))
          (fun u d => (W (Proc.devRef .tc main_arg3) : Vec Ideal S128x128 .f32) (ix2 u d)) r e := by
  rw [hostW_term W, cat3_apply]
  unfold Cert.Attn.wcat
  by_cases h : r.val < 64
  · rw [dif_pos h, dif_pos h, mulf_apply,
      broadcastInDim_apply (![] : Fin S_.rank → Fin S64x128.rank) bcast_S_S64x128 _ _ ix0 (fun a => a.elim0),
      constant_apply]
  · rw [dif_neg h, dif_neg h]

end Cert.KernelIdeal.Hand

end
-- ==== Proof.KI.KernelIsSpec.lean ====
/-
  The idealized kernel's result array, element by element, is the first arrangement of the specification applied to
  the four inputs as launched: the attention call finds the input as launched and the three projected arrays as the
  projection call left them; those are rows of the stacked weight applied to the input as launched; and the stacked
  weight is what the host operations built from the three weights as launched.
-/
import proofs.«409588_j78812649881770_3_alg».proof.Proof.KI.Run
import proofs.«409588_j78812649881770_3_alg».proof.Proof.KI.Value0
import proofs.«409588_j78812649881770_3_alg».proof.Proof.KI.Value1
import proofs.«409588_j78812649881770_3_alg».proof.Proof.KI.HostW
import proofs.«409588_j78812649881770_3_alg».proof.Proof.Attn.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The four inputs as launched, at their literal types. -/
abbrev xIn (c : Dev nD) : Vec Ideal S8x128x4096 .f32 := m ((c : Thread nD τ).loc main_arg0)
abbrev wqIn (c : Dev nD) : Vec Ideal S64x128 .f32 := m ((c : Thread nD τ).loc main_arg1)
abbrev wkIn (c : Dev nD) : Vec Ideal S64x128 .f32 := m ((c : Thread nD τ).loc main_arg2)
abbrev wvIn (c : Dev nD) : Vec Ideal S128x128 .f32 := m ((c : Thread nD τ).loc main_arg3)

/-- The projection call finds the input as launched. -/
theorem V1_main_arg0 (c : Dev nD) : V1 m ρ c main_arg0 = m ((c : Thread nD τ).loc main_arg0) :=
  (W1_of m ρ c main_arg0 (by decide)).trans rfl
/-- So does the attention call. -/
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_main_arg0 m ρ c)

/-- The stacked weight the projection call finds, element by element. -/
theorem V1_main_v2_apply (c : Dev nD) (r : Fin 256) (e : Fin 128) :
    wA0 (V1 m ρ) c (ix2 r e)
      = Cert.Attn.wcat (fun k d => wqIn m c (ix2 k d)) (fun k d => wkIn m c (ix2 k d)) (fun u d => wvIn m c (ix2 u d)) r e :=
  hostW_apply (W0 m ρ c) r e

/-- A row of the stacked weight applied to the input, as the projection call computes it. -/
theorem proj_eq (c : Dev nD) (b : Fin 8) (r : Fin 256) (i : Fin 4096) :
    (∑ e : Fin 128, wA0 (V1 m ρ) c (ix2 r e) * xA0 (V1 m ρ) c (ix3 b e i))
      = Cert.Attn.proj (fun b d n => xIn m c (ix3 b d n))
          (Cert.Attn.wcat (fun k d => wqIn m c (ix2 k d)) (fun k d => wkIn m c (ix2 k d)) (fun u d => wvIn m c (ix2 u d))) b r i := by
  unfold Cert.Attn.proj
  refine Finset.sum_congr rfl fun e _ => ?_
  rw [V1_main_v2_apply m ρ c r e]
  exact congrArg (_ * ·) (congrFun (V1_main_arg0 m ρ c) (ix3 b e i))

/-- THE KERNEL'S RESULT, element by element. -/
theorem result_apply (c : Dev nD) (b : Fin 8) (f : Fin 128) (i : Fin 4096) :
    out1 (V2 m ρ) c (ix3 b f i)
      = Cert.Attn.outK (fun b d n => xIn m c (ix3 b d n)) (fun k d => wqIn m c (ix2 k d)) (fun k d => wkIn m c (ix2 k d))
          (fun u d => wvIn m c (ix2 u d)) b f i := by
  rw [out1_apply (V2 m ρ) c b f i]
  unfold Cert.Attn.outK
  have hx : (fun (b : Fin 8) (d : Fin 128) (n : Fin 4096) => xA1 (V2 m ρ) c (ix3 b d n)) = fun b d n => xIn m c (ix3 b d n) :=
    funext fun b => funext fun d => funext fun n => congrFun (V2_main_arg0 m ρ c) (ix3 b d n)
  have hq : (fun (b : Fin 8) (d : Fin 64) (n : Fin 4096) => qA1 (V2 m ρ) c (ix3 b d n))
      = fun b d n => Cert.Attn.proj (fun b d n => xIn m c (ix3 b d n))
          (Cert.Attn.wcat (fun k d => wqIn m c (ix2 k d)) (fun k d => wkIn m c (ix2 k d)) (fun u d => wvIn m c (ix2 u d))) b ⟨d.val, by omega⟩ n :=
    funext fun b => funext fun d => funext fun n =>
      (congrFun (W2_arr m ρ c 2) (ix3 b d n)).trans ((qOut0_apply (V1 m ρ) c b d n).trans (proj_eq m ρ c b _ n))
  have hk : (fun (b : Fin 8) (d : Fin 64) (n : Fin 4096) => kA1 (V2 m ρ) c (ix3 b d n))
      = fun b d n => Cert.Attn.proj (fun b d n => xIn m c (ix3 b d n))
          (Cert.Attn.wcat (fun k d => wqIn m c (ix2 k d)) (fun k d => wkIn m c (ix2 k d)) (fun u d => wvIn m c (ix2 u d))) b ⟨64 + d.val, by omega⟩ n :=
    funext fun b => funext fun d => funext fun n =>
      (congrFun (W2_arr m ρ c 3) (ix3 b d n)).trans ((kOut0_apply (V1 m ρ) c b d n).trans (proj_eq m ρ c b _ n))
  have hv : (fun (b : Fin 8) (u : Fin 128) (n : Fin 4096) => vA1 (V2 m ρ) c (ix3 b u n))
      = fun b u n => Cert.Attn.proj (fun b d n => xIn m c (ix3 b d n))
          (Cert.Attn.wcat (fun k d => wqIn m c (ix2 k d)) (fun k d => wkIn m c (ix2 k d)) (fun u d => wvIn m c (ix2 u d))) b ⟨128 + u.val, by omega⟩ n :=
    funext fun b => funext fun u => funext fun n =>
      (congrFun (W2_arr m ρ c 4) (ix3 b u n)).trans ((vOut0_apply (V1 m ρ) c b u n).trans (proj_eq m ρ c b _ n))
  rw [hx, hq, hk, hv]

end Cert.KernelIdeal.Hand

end
-- ==== Proof.Ref.RefIsSpec.lean ====
/-
  The reference program's result, read one operation at a time, is the second arrangement of the specification.

  The program first transposes the input so that a position's 128 features lie along the last axis, and projects them
  with the three weights: queries and keys of 64 entries, values of 128. The score of query position i against key
  position j is the inner product of their projections times 1/8. Along j the program takes the maximum of the scores
  (started from −∞, and compared with −∞ once more), subtracts it, exponentiates, sums the exponentials from the zero
  word and divides each exponential by that sum; the weights so obtained combine the values' feature v over j; the
  result is transposed back to (sequence, feature, position) and the input is added.

  Each stage is read below at an index given by its coordinates, in terms of the stage before it. Every sum over a
  contraction axis and the sum and the maximum over the 4096 key positions stay symbolic throughout: only the index
  functions between stages are computed, coordinate by coordinate.
-/
import proofs.«409588_j78812649881770_3_alg».proof.Proof.Gen.ReferenceIdeal.Read
import proofs.«409588_j78812649881770_3_alg».proof.Proof.Attn.Spec
import Idealize.ShloMosaic.PureOps.Reduce
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

variable [Cert.ReferenceIdeal.Facts]

section Stages

variable (a0 : (⟨S8x128x4096, .f32⟩ : BufTy).Contents (Elt Ideal)) (a1 a2 : (⟨S64x128, .f32⟩ : BufTy).Contents (Elt Ideal))
    (a3 : (⟨S128x128, .f32⟩ : BufTy).Contents (Elt Ideal))

/-! ## The projections -/

/-- The transposed input at (sequence b, position n, feature d) is the input at (b, d, n). -/
theorem transposed_at (b : Fin 8) (n : Fin 4096) (d : Fin 128) :
    val_main_v0 (F := Ideal) a0 (ix3 b n d) = a0 (ix3 b d n) := by
  rw [val_main_v0_apply]
  exact congrArg a0 (funext fun c => Fin.ext (by match c with | ⟨0, _⟩ => rfl | ⟨1, _⟩ => rfl | ⟨2, _⟩ => rfl))

/-- Entry k of the query projection of position n: the features of n against row k of the query weight. -/
theorem query_at (b : Fin 8) (n : Fin 4096) (k : Fin 64) :
    val_main_v1 (F := Ideal) a0 a1 (ix3 b n k) = ∑ d : Fin 128, a0 (ix3 b d n) * a1 (ix2 k d) := by
  rw [val_main_v1_apply]
  refine Finset.sum_congr rfl fun d _ => ?_
  have el : lidx_main_v1 (ix3 b n k) d = ix3 b n d :=
    funext fun c => Fin.ext (by match c with | ⟨0, _⟩ => rfl | ⟨1, _⟩ => rfl | ⟨2, _⟩ => rfl)
  have er : ridx_main_v1 (ix3 b n k) d = ix2 k d :=
    funext fun c => Fin.ext (by match c with | ⟨0, _⟩ => rfl | ⟨1, _⟩ => rfl)
  rw [el, er, transposed_at]

/-- Entry k of the key projection of position n. -/
theorem key_at (b : Fin 8) (n : Fin 4096) (k : Fin 64) :
    val_main_v2 (F := Ideal) a0 a2 (ix3 b n k) = ∑ d : Fin 128, a0 (ix3 b d n) * a2 (ix2 k d) := by
  rw [val_main_v2_apply]
  refine Finset.sum_congr rfl fun d _ => ?_
  have el : lidx_main_v2 (ix3 b n k) d = ix3 b n d :=
    funext fun c => Fin.ext (by match c with | ⟨0, _⟩ => rfl | ⟨1, _⟩ => rfl | ⟨2, _⟩ => rfl)
  have er : ridx_main_v2 (ix3 b n k) d = ix2 k d :=
    funext fun c => Fin.ext (by match c with | ⟨0, _⟩ => rfl | ⟨1, _⟩ => rfl)
  rw [el, er, transposed_at]

/-- Entry u of the value projection of position n. -/
theorem value_at (b : Fin 8) (n : Fin 4096) (u : Fin 128) :
    val_main_v3 (F := Ideal) a0 a3 (ix3 b n u) = ∑ d : Fin 128, a0 (ix3 b d n) * a3 (ix2 u d) := by
  rw [val_main_v3_apply]
  refine Finset.sum_congr rfl fun d _ => ?_
  have el : lidx_main_v3 (ix3 b n u) d = ix3 b n d :=
    funext fun c => Fin.ext (by match c with | ⟨0, _⟩ => rfl | ⟨1, _⟩ => rfl | ⟨2, _⟩ => rfl)
  have er : ridx_main_v3 (ix3 b n u) d = ix2 u d :=
    funext fun c => Fin.ext (by match c with | ⟨0, _⟩ => rfl | ⟨1, _⟩ => rfl)
  rw [el, er, transposed_at]

/-! ## The scores -/

/-- The scaled score of query position i against key position j of sequence b: the inner product of the two
    projections over their 64 entries, times the word of 1/8. -/
def score (b : Fin 8) (i j : Fin 4096) : EReal :=
  (∑ k : Fin 64, (∑ d : Fin 128, a0 (ix3 b d i) * a1 (ix2 k d)) * (∑ d : Fin 128, a0 (ix3 b d j) * a2 (ix2 k d)))
    * Cert.Attn.c8

/-- The batched product of queries and keys at (b, i, j) contracts the 64 entries of the two projections. -/
theorem rawScore_at (b : Fin 8) (i j : Fin 4096) :
    val_main_v4 (F := Ideal) a0 a1 a2 (ix3 b i j)
      = ∑ k : Fin 64, (∑ d : Fin 128, a0 (ix3 b d i) * a1 (ix2 k d)) * (∑ d : Fin 128, a0 (ix3 b d j) * a2 (ix2 k d)) := by
  rw [val_main_v4_apply]
  refine Finset.sum_congr rfl fun k _ => ?_
  have el : lidx_main_v4 (ix3 b i j) k = ix3 b i k :=
    funext fun c => Fin.ext (by match c with | ⟨0, _⟩ => rfl | ⟨1, _⟩ => rfl | ⟨2, _⟩ => rfl)
  have er : ridx_main_v4 (ix3 b i j) k = ix3 b j k :=
    funext fun c => Fin.ext (by match c with | ⟨0, _⟩ => rfl | ⟨1, _⟩ => rfl | ⟨2, _⟩ => rfl)
  rw [el, er, query_at, key_at]

/-- The product with the broadcast constant is the scaled score. -/
theorem score_at (b : Fin 8) (i j : Fin 4096) :
    val_main_v6 (F := Ideal) a0 a1 a2 (ix3 b i j) = score a0 a1 a2 b i j := by
  rw [val_main_v6_apply, rawScore_at, val_main_v5_apply, val_main_cst_apply]
  rfl

/-! ## The row maximum -/

/-- Dropping the last axis of an [8, 4096, 4096] array leaves an [8, 4096] one. -/
theorem dropsLast : S8x4096x4096.Reduces [2] S8x4096 := by decide

/-- The index (b, i) of the reduced array with the key position j put back on the dropped axis is (b, i, j). -/
theorem lift_at (b : Fin 8) (i : Fin 4096) (j : Fin (S8x4096x4096.size 2)) :
    dropsLast.lift (ix2 b i) j = ix3 b i (⟨j.val, j.isLt⟩ : Fin 4096) :=
  funext fun c => Fin.ext (by match c with | ⟨0, _⟩ => rfl | ⟨1, _⟩ => rfl | ⟨2, _⟩ => rfl)

/-- The maximum-reduce along the key positions, at (b, i), is the maximum of row i of the scores, started from −∞. -/
theorem rowMax_at (b : Fin 8) (i : Fin 4096) :
    val_main_v7 (F := Ideal) a0 a1 a2 (ix2 b i) = Cert.Attn.rowMax (fun j => score a0 a1 a2 b i j) := by
  unfold val_main_v7
  rw [Host.reduce_eq_fold_single FloatOps.maximumf _ _ _ dropsLast _ (ix2 b i)]
  have hf : (val_main_v6 (F := Ideal) a0 a1 a2 ∘ dropsLast.lift (ix2 b i)) = fun j : Fin 4096 => score a0 a1 a2 b i j :=
    funext fun j => (congrArg (val_main_v6 (F := Ideal) a0 a1 a2) (lift_at b i j)).trans (score_at a0 a1 a2 b i _)
  exact congrArg (fun g => Finset.fold max Cert.Attn.negInf g (Finset.univ : Finset (Fin 4096))) hf

/-- The maximum the scores are shifted by: the row maximum compared once more with −∞. -/
theorem shift_at (b : Fin 8) (i : Fin 4096) :
    val_main_v9 (F := Ideal) a0 a1 a2 (ix2 b i)
      = max Cert.Attn.negInf (Cert.Attn.rowMax (fun j => score a0 a1 a2 b i j)) := by
  rw [val_main_v9_apply, rowMax_at, val_main_v8_apply, val_main_cst_1_apply]
  rfl

/-- The shift broadcast along the key positions: at (b, i, j) it is the shift of row (b, i). -/
theorem shiftBroadcast_at (b : Fin 8) (i j : Fin 4096) :
    val_main_v11 (F := Ideal) a0 a1 a2 (ix3 b i j)
      = max Cert.Attn.negInf (Cert.Attn.rowMax (fun j => score a0 a1 a2 b i j)) := by
  rw [val_main_v11_apply, val_main_v10_apply]
  have e : idx_main_v10 (idx_main_v11 (ix3 b i j)) = ix2 b i :=
    funext fun c => Fin.ext (by match c with | ⟨0, _⟩ => rfl | ⟨1, _⟩ => rfl)
  rw [e, shift_at]

/-! ## The exponentials and their sum -/

/-- The exponential of the shifted score of key position j in row (b, i). -/
def expo (b : Fin 8) (i j : Fin 4096) : EReal :=
  Ideal.exp (score a0 a1 a2 b i j - max Cert.Attn.negInf (Cert.Attn.rowMax (fun j => score a0 a1 a2 b i j)))

theorem expo_at (b : Fin 8) (i j : Fin 4096) :
    val_main_v13 (F := Ideal) a0 a1 a2 (ix3 b i j) = expo a0 a1 a2 b i j := by
  rw [val_main_v13_apply, val_main_v12_apply, score_at, shiftBroadcast_at]
  rfl

/-- The row sum of the exponentials, started from the zero word. -/
def expoSum (b : Fin 8) (i : Fin 4096) : EReal := Cert.Attn.zeroW + ∑ j : Fin 4096, expo a0 a1 a2 b i j

theorem expoSum_at (b : Fin 8) (i : Fin 4096) :
    val_main_v14 (F := Ideal) a0 a1 a2 (ix2 b i) = expoSum a0 a1 a2 b i := by
  rw [val_main_v14_apply, val_main_cst_2_apply]
  refine congrArg (_ + ·) (Finset.sum_congr rfl fun j _ => ?_)
  have e : idx_main_v14 (ix2 b i) j = ix3 b i j :=
    funext fun c => Fin.ext (by match c with | ⟨0, _⟩ => rfl | ⟨1, _⟩ => rfl | ⟨2, _⟩ => rfl)
  rw [e, expo_at]

/-- The row sum broadcast along the key positions. -/
theorem expoSumBroadcast_at (b : Fin 8) (i j : Fin 4096) :
    val_main_v16 (F := Ideal) a0 a1 a2 (ix3 b i j) = expoSum a0 a1 a2 b i := by
  rw [val_main_v16_apply, val_main_v15_apply]
  have e : idx_main_v15 (idx_main_v16 (ix3 b i j)) = ix2 b i :=
    funext fun c => Fin.ext (by match c with | ⟨0, _⟩ => rfl | ⟨1, _⟩ => rfl)
  rw [e, expoSum_at]

/-- The weight of key position j for query position i: its exponential divided by the row sum. -/
theorem weight_at (b : Fin 8) (i j : Fin 4096) :
    val_main_v17 (F := Ideal) a0 a1 a2 (ix3 b i j) = Ideal.div (expo a0 a1 a2 b i j) (expoSum a0 a1 a2 b i) := by
  rw [val_main_v17_apply, expo_at, expoSumBroadcast_at]
  rfl

/-! ## The weighted sum of the values, and the residual -/

/-- The batched product of the weights and the values at (b, i, v) contracts the key positions. -/
theorem attended_at (b : Fin 8) (i : Fin 4096) (v : Fin 128) :
    val_main_v18 (F := Ideal) a0 a1 a2 a3 (ix3 b i v)
      = ∑ j : Fin 4096, Ideal.div (expo a0 a1 a2 b i j) (expoSum a0 a1 a2 b i) * (∑ d : Fin 128, a0 (ix3 b d j) * a3 (ix2 v d)) := by
  rw [val_main_v18_apply]
  refine Finset.sum_congr rfl fun j _ => ?_
  have el : lidx_main_v18 (ix3 b i v) j = ix3 b i j :=
    funext fun c => Fin.ext (by match c with | ⟨0, _⟩ => rfl | ⟨1, _⟩ => rfl | ⟨2, _⟩ => rfl)
  have er : ridx_main_v18 (ix3 b i v) j = ix3 b j v :=
    funext fun c => Fin.ext (by match c with | ⟨0, _⟩ => rfl | ⟨1, _⟩ => rfl | ⟨2, _⟩ => rfl)
  rw [el, er, weight_at, value_at]

/-- The result at (b, v, i): the attended value transposed back, plus the input there. -/
theorem result_at (b : Fin 8) (v : Fin 128) (i : Fin 4096) :
    val_main_v20 (F := Ideal) a0 a1 a2 a3 (ix3 b v i)
      = (∑ j : Fin 4096, Ideal.div (expo a0 a1 a2 b i j) (expoSum a0 a1 a2 b i) * (∑ d : Fin 128, a0 (ix3 b d j) * a3 (ix2 v d)))
        + a0 (ix3 b v i) := by
  rw [val_main_v20_apply, val_main_v19_apply]
  have e : idx_main_v19 (ix3 b v i) = ix3 b i v :=
    funext fun c => Fin.ext (by match c with | ⟨0, _⟩ => rfl | ⟨1, _⟩ => rfl | ⟨2, _⟩ => rfl)
  rw [e, attended_at]
  rfl

end Stages

theorem ref_apply (a0 : (⟨S8x128x4096, .f32⟩ : BufTy).Contents (Elt Ideal)) (a1 a2 : (⟨S64x128, .f32⟩ : BufTy).Contents (Elt Ideal))
    (a3 : (⟨S128x128, .f32⟩ : BufTy).Contents (Elt Ideal)) (b : Fin 8) (f : Fin 128) (i : Fin 4096) :
    val_main_v20 (F := Ideal) a0 a1 a2 a3 (ix3 b f i)
      = Cert.Attn.outR (fun b d n => a0 (ix3 b d n)) (fun k d => a1 (ix2 k d)) (fun k d => a2 (ix2 k d)) (fun u d => a3 (ix2 u d)) b f i := by
  rw [result_at]
  rfl

end Cert.ReferenceIdeal.RefValue

end
-- ==== Proof.Attn.Consts.lean ====
/-
  The four float words the two arrangements mention, as extended reals: 1/8, −∞, 1 and 0. Each is read off its
  sign, exponent and fraction fields: 0x3E000000 has exponent field 124 and fraction 0, that is 2^(124 − 127);
  0xFF800000 is the negative word with the all-ones exponent and fraction 0; 0x3F800000 has exponent field 127;
  the zero word has every field 0.
-/
import proofs.«409588_j78812649881770_3_alg».proof.Proof.Attn.Spec

noncomputable section

namespace Cert.Attn

open Idealize.ShloMosaic

theorem c8_eq : c8 = ((1 / 8 : ℝ) : EReal) := by
  simp [c8, Ideal.ofBits, Ideal.ieee]
  exact_mod_cast (by norm_num : (8388608 : ℝ) * (2 ^ 26)⁻¹ = 8⁻¹)
theorem negInf_eq : negInf = (⊥ : EReal) := by simp [negInf, Ideal.ofBits, Ideal.ieee]
theorem oneW_eq : oneW = ((1 : ℝ) : EReal) := by
  simp [oneW, Ideal.ofBits, Ideal.ieee]
  exact_mod_cast (by norm_num : (8388608 : ℝ) * (2 ^ 23)⁻¹ = 1)
theorem zeroW_eq : zeroW = ((0 : ℝ) : EReal) := by simp [zeroW, Ideal.ofBits, Ideal.ieee]

end Cert.Attn

end
-- ==== Proof.Attn.Real.lean ====
/-
  The two arrangements over the real numbers, and that they agree there.
-/
import Mathlib.Analysis.SpecialFunctions.Exp
import Mathlib.Algebra.BigOperators.Field
import Mathlib.Order.Filter.Extr

noncomputable section

open scoped BigOperators

namespace Cert.Attn.Re

/-- The maximum of a row of reals. -/
def rowSup (f : Fin 4096 → ℝ) : ℝ := (Finset.univ : Finset (Fin 4096)).sup' Finset.univ_nonempty f

section
variable (x : Fin 8 → Fin 128 → Fin 4096 → ℝ) (wq wk : Fin 64 → Fin 128 → ℝ) (wv : Fin 128 → Fin 128 → ℝ)

/-- The first arrangement over ℝ: the 1/8 folded into the query weight, the normalisation after the weighted sum. -/
def outK (b : Fin 8) (f : Fin 128) (i : Fin 4096) : ℝ :=
  let q : Fin 64 → Fin 4096 → ℝ := fun d n => ∑ e : Fin 128, (wq d e * (1 / 8)) * x b e n
  let k : Fin 64 → Fin 4096 → ℝ := fun d n => ∑ e : Fin 128, wk d e * x b e n
  let v : Fin 128 → Fin 4096 → ℝ := fun u n => ∑ e : Fin 128, wv u e * x b e n
  let dist : Fin 4096 → ℝ := fun j => ∑ d : Fin 64, q d i * k d j
  let p : Fin 4096 → ℝ := fun j => Real.exp (dist j - rowSup dist)
  x b f i + (∑ j : Fin 4096, v f j * p j) * (1 / ∑ j : Fin 4096, p j)

/-- The second arrangement over ℝ: the scores scaled, the exponentials normalised before the weighted sum. -/
def outR (b : Fin 8) (f : Fin 128) (i : Fin 4096) : ℝ :=
  let q : Fin 4096 → Fin 64 → ℝ := fun n k => ∑ d : Fin 128, x b d n * wq k d
  let kk : Fin 4096 → Fin 64 → ℝ := fun n k => ∑ d : Fin 128, x b d n * wk k d
  let vv : Fin 4096 → Fin 128 → ℝ := fun n u => ∑ d : Fin 128, x b d n * wv u d
  let s : Fin 4096 → ℝ := fun j => (∑ k : Fin 64, q i k * kk j k) * (1 / 8)
  let e : Fin 4096 → ℝ := fun j => Real.exp (s j - rowSup s)
  (∑ j : Fin 4096, e j / (∑ j : Fin 4096, e j) * vv j f) + x b f i

/-- A query row with the scale folded into the weight is the unscaled row times the scale:
    the constant factor 1/8 leaves the sum over the 128 features. -/
theorem query_scaled (b : Fin 8) (d : Fin 64) (i : Fin 4096) :
    (∑ e : Fin 128, (wq d e * (1 / 8)) * x b e i) = (∑ e : Fin 128, x b e i * wq d e) * (1 / 8) := by
  rw [Finset.sum_mul]
  refine Finset.sum_congr rfl (fun e _ => ?_)
  ring

/-- A projected row written weight-first is the same row written input-first
    (commutativity of each product under the sum). -/
theorem proj_comm (w : Fin 128 → ℝ) (b : Fin 8) (j : Fin 4096) :
    (∑ e : Fin 128, w e * x b e j) = ∑ e : Fin 128, x b e j * w e :=
  Finset.sum_congr rfl (fun e _ => mul_comm (w e) (x b e j))

/-- The two score functions agree at every key position j: the scale taken out of each
    query row is taken out of the whole sum over the 64 head dimensions. -/
theorem score_eq (b : Fin 8) (i j : Fin 4096) :
    (∑ d : Fin 64, (∑ e : Fin 128, (wq d e * (1 / 8)) * x b e i) * (∑ e : Fin 128, wk d e * x b e j))
      = (∑ k : Fin 64, (∑ d : Fin 128, x b d i * wq k d) * (∑ d : Fin 128, x b d j * wk k d)) * (1 / 8) := by
  rw [Finset.sum_mul]
  refine Finset.sum_congr rfl (fun d _ => ?_)
  rw [query_scaled x wq b d i, proj_comm x (wk d) b j]
  ring

/-- Normalising after the weighted sum is normalising each weight before it:
    (∑ v·p) · (1/S) = ∑ (p/S)·v, termwise, for any S. -/
theorem normalise_sum (v p : Fin 4096 → ℝ) (S : ℝ) :
    (∑ j : Fin 4096, v j * p j) * (1 / S) = ∑ j : Fin 4096, p j / S * v j := by
  rw [Finset.sum_mul]
  refine Finset.sum_congr rfl (fun j _ => ?_)
  ring

/-- Over ℝ the two arrangements are one function. -/
theorem real_law (b : Fin 8) (f : Fin 128) (i : Fin 4096) : outK x wq wk wv b f i = outR x wq wk wv b f i := by
  -- the scores agree pointwise, hence also as functions under the row maximum;
  -- the value rows agree by commutativity
  have hs := score_eq x wq wk b i
  have hv : ∀ j : Fin 4096, (∑ e : Fin 128, wv f e * x b e j) = ∑ d : Fin 128, x b d j * wv f d :=
    fun j => proj_comm x (wv f) b j
  simp only [outK, outR, hs, hv]
  -- what is left is the normalisation moved inside the sum, and the residual moved to the other side
  rw [normalise_sum, add_comm]

end

end Cert.Attn.Re

end
-- ==== Proof.Attn.LawK.lean ====
/-
  On real inputs the first arrangement over the extended reals is the real one.
-/
import proofs.«409588_j78812649881770_3_alg».proof.Proof.Attn.Spec
import proofs.«409588_j78812649881770_3_alg».proof.Proof.Attn.Consts
import proofs.«409588_j78812649881770_3_alg».proof.Proof.Attn.Real
import Mathlib.Data.Finset.Fold
import Mathlib.Order.Filter.Extr
import Mathlib.Data.EReal.Basic

noncomputable section

open scoped BigOperators

namespace Cert.Attn

open Idealize.ShloMosaic

/-- A finite sum of coercions of reals is the coercion of the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The maximum of a row of coerced reals, started from −∞, is the coercion of the row's real maximum:
    it is below every upper bound of the row, and the real maximum is attained at some position. -/
theorem rowMax_coe (g : Fin 4096 → ℝ) :
    rowMax (fun j => ((g j : ℝ) : EReal)) = ((Re.rowSup g : ℝ) : EReal) := by
  unfold rowMax Re.rowSup
  apply le_antisymm
  · rw [Finset.fold_max_le]
    refine ⟨?_, fun j _ => ?_⟩
    · rw [negInf_eq]; exact bot_le
    · exact EReal.coe_le_coe_iff.mpr (Finset.le_sup' g (Finset.mem_univ j))
  · obtain ⟨j, _, hj⟩ := Finset.exists_mem_eq_sup' Finset.univ_nonempty g
    rw [Finset.le_fold_max]
    exact Or.inr ⟨j, Finset.mem_univ j, by rw [hj]⟩

section
variable (x : Fin 8 → Fin 128 → Fin 4096 → ℝ) (wq wk : Fin 64 → Fin 128 → ℝ) (wv : Fin 128 → Fin 128 → ℝ)

/-- Rows 0–63 of the stacked projection: the query weight times 1/8 applied to a position's features. -/
theorem proj_q (b : Fin 8) (d : Fin 64) (i : Fin 4096) (h : d.val < 256) :
    proj (fun b d n => ((x b d n : ℝ) : EReal))
      (wcat (fun k d => ((wq k d : ℝ) : EReal)) (fun k d => ((wk k d : ℝ) : EReal)) (fun u d => ((wv u d : ℝ) : EReal)))
      b ⟨d.val, h⟩ i = ((∑ e : Fin 128, (wq d e * (1 / 8)) * x b e i : ℝ) : EReal) := by
  unfold proj wcat
  rw [← coe_sum]
  refine Finset.sum_congr rfl fun e _ => ?_
  have h1 : (⟨d.val, h⟩ : Fin 256).val < 64 := d.isLt
  rw [dif_pos h1, c8_eq, ← EReal.coe_mul, ← EReal.coe_mul]

/-- Rows 64–127 of the stacked projection: the key weight applied to a position's features. -/
theorem proj_k (b : Fin 8) (d : Fin 64) (i : Fin 4096) (h : 64 + d.val < 256) :
    proj (fun b d n => ((x b d n : ℝ) : EReal))
      (wcat (fun k d => ((wq k d : ℝ) : EReal)) (fun k d => ((wk k d : ℝ) : EReal)) (fun u d => ((wv u d : ℝ) : EReal)))
      b ⟨64 + d.val, h⟩ i = ((∑ e : Fin 128, wk d e * x b e i : ℝ) : EReal) := by
  unfold proj wcat
  rw [← coe_sum]
  refine Finset.sum_congr rfl fun e _ => ?_
  have h1 : ¬ (⟨64 + d.val, h⟩ : Fin 256).val < 64 := by show ¬ 64 + d.val < 64; omega
  have h2 : (⟨64 + d.val, h⟩ : Fin 256).val < 128 := by show 64 + d.val < 128; omega
  rw [dif_neg h1, dif_pos h2, ← EReal.coe_mul]
  have h3 : (⟨(⟨64 + d.val, h⟩ : Fin 256).val - 64, by omega⟩ : Fin 64) = d :=
    Fin.ext (by show 64 + d.val - 64 = d.val; omega)
  rw [h3]

/-- Rows 128–255 of the stacked projection: the value weight applied to a position's features. -/
theorem proj_v (b : Fin 8) (u : Fin 128) (i : Fin 4096) (h : 128 + u.val < 256) :
    proj (fun b d n => ((x b d n : ℝ) : EReal))
      (wcat (fun k d => ((wq k d : ℝ) : EReal)) (fun k d => ((wk k d : ℝ) : EReal)) (fun u d => ((wv u d : ℝ) : EReal)))
      b ⟨128 + u.val, h⟩ i = ((∑ e : Fin 128, wv u e * x b e i : ℝ) : EReal) := by
  unfold proj wcat
  rw [← coe_sum]
  refine Finset.sum_congr rfl fun e _ => ?_
  have h1 : ¬ (⟨128 + u.val, h⟩ : Fin 256).val < 64 := by show ¬ 128 + u.val < 64; omega
  have h2 : ¬ (⟨128 + u.val, h⟩ : Fin 256).val < 128 := by show ¬ 128 + u.val < 128; omega
  rw [dif_neg h1, dif_neg h2, ← EReal.coe_mul]
  have h3 : (⟨(⟨128 + u.val, h⟩ : Fin 256).val - 128, by omega⟩ : Fin 128) = u :=
    Fin.ext (by show 128 + u.val - 128 = u.val; omega)
  rw [h3]

end

/-- The attention call on coerced real arrays is the coercion of the same expression over the reals:
    the scores are real sums, the row maximum is the real one, the exponentials are real and positive,
    so the row sum is a nonzero real and its reciprocal the real reciprocal. -/
theorem attnK_coe (x : Fin 8 → Fin 128 → Fin 4096 → ℝ) (q k : Fin 8 → Fin 64 → Fin 4096 → ℝ)
    (v : Fin 8 → Fin 128 → Fin 4096 → ℝ) (b : Fin 8) (f : Fin 128) (i : Fin 4096) :
    attnK (fun b d n => ((x b d n : ℝ) : EReal)) (fun b d n => ((q b d n : ℝ) : EReal))
      (fun b d n => ((k b d n : ℝ) : EReal)) (fun b u n => ((v b u n : ℝ) : EReal)) b f i
      = ((x b f i
          + (∑ j : Fin 4096, v b f j
              * Real.exp ((∑ d : Fin 64, q b d i * k b d j) - Re.rowSup fun j => ∑ d : Fin 64, q b d i * k b d j))
            * (1 / ∑ j : Fin 4096,
                Real.exp ((∑ d : Fin 64, q b d i * k b d j) - Re.rowSup fun j => ∑ d : Fin 64, q b d i * k b d j)) : ℝ) : EReal) := by
  unfold attnK
  have hd : ∀ j : Fin 4096, (∑ d : Fin 64, ((q b d i : ℝ) : EReal) * ((k b d j : ℝ) : EReal))
      = ((∑ d : Fin 64, q b d i * k b d j : ℝ) : EReal) := by
    intro j
    rw [← coe_sum]
    exact Finset.sum_congr rfl fun d _ => (EReal.coe_mul _ _).symm
  simp only [hd, rowMax_coe, ← EReal.coe_sub, Ideal.exp_coe, ← EReal.coe_mul, coe_sum]
  have hS : (∑ j : Fin 4096,
      Real.exp ((∑ d : Fin 64, q b d i * k b d j) - Re.rowSup fun j => ∑ d : Fin 64, q b d i * k b d j)) ≠ 0 :=
    ne_of_gt (Finset.sum_pos (fun j _ => Real.exp_pos _) Finset.univ_nonempty)
  rw [oneW_eq, Ideal.div_coe hS, ← EReal.coe_mul, one_mul, ← EReal.coe_mul, ← EReal.coe_add]

theorem outK_coe (x : Fin 8 → Fin 128 → Fin 4096 → ℝ) (wq wk : Fin 64 → Fin 128 → ℝ) (wv : Fin 128 → Fin 128 → ℝ)
    (b : Fin 8) (f : Fin 128) (i : Fin 4096) :
    outK (fun b d n => ((x b d n : ℝ) : EReal)) (fun k d => ((wq k d : ℝ) : EReal)) (fun k d => ((wk k d : ℝ) : EReal))
      (fun u d => ((wv u d : ℝ) : EReal)) b f i = ((Re.outK x wq wk wv b f i : ℝ) : EReal) := by
  unfold outK
  simp only [proj_q, proj_k, proj_v]
  exact attnK_coe x (fun b d n => ∑ e : Fin 128, (wq d e * (1 / 8)) * x b e n)
    (fun b d n => ∑ e : Fin 128, wk d e * x b e n) (fun b u n => ∑ e : Fin 128, wv u e * x b e n) b f i

end Cert.Attn

end
-- ==== Proof.Attn.LawR.lean ====
/-
  On real inputs the second arrangement over the extended reals is the real one.

  The embedding of ℝ in the extended reals commutes with every layer of the arrangement: products and finite
  sums, the row maximum (started from −∞, which is below every real), subtraction, the exponential, and division
  by the row sum, which is a sum of exponentials and hence positive. Pushing the embedding outward layer by layer,
  innermost first, turns the extended-real expression into the embedding of the real one.
-/
import proofs.«409588_j78812649881770_3_alg».proof.Proof.Attn.Spec
import proofs.«409588_j78812649881770_3_alg».proof.Proof.Attn.Consts
import proofs.«409588_j78812649881770_3_alg».proof.Proof.Attn.Real

noncomputable section

open scoped BigOperators

namespace Cert.Attn

open Idealize.ShloMosaic

/-- A finite sum of embedded reals is the embedding of the real sum: the empty sum is 0 on both sides, and
    adjoining one term uses that the embedding is additive. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The maximum of a row of embedded reals, started from −∞, is the embedding of the real row maximum.
    Upper bound: −∞ is below everything and each entry is below the real maximum. Lower bound: the real
    maximum is attained at some position j, and the entry there is one of the terms of the fold. -/
private theorem rowMax_coe (g : Fin 4096 → ℝ) :
    rowMax (fun j => ((g j : ℝ) : EReal)) = ((Re.rowSup g : ℝ) : EReal) := by
  unfold rowMax Re.rowSup
  apply le_antisymm
  · rw [Finset.fold_max_le]
    refine ⟨by rw [negInf_eq]; exact bot_le, fun j _ => ?_⟩
    exact EReal.coe_le_coe_iff.mpr (Finset.le_sup' g (Finset.mem_univ j))
  · obtain ⟨j, hj, hEq⟩ := Finset.exists_mem_eq_sup' Finset.univ_nonempty g
    rw [Finset.le_fold_max]
    exact Or.inr ⟨j, hj, by rw [hEq]⟩

/-- Taking the maximum with −∞ once more changes nothing. -/
theorem max_negInf_coe (a : ℝ) : max negInf (a : EReal) = (a : EReal) := by
  rw [negInf_eq]; exact max_eq_right bot_le

/-- Dividing an embedded real by a nonzero embedded real is the embedding of the real quotient:
    the division is the product with the reciprocal 1/S, and a · (1/S) = a / S. -/
theorem div_coe_coe (a : ℝ) {S : ℝ} (h : S ≠ 0) :
    Ideal.div (a : EReal) (S : EReal) = ((a / S : ℝ) : EReal) := by
  rw [Ideal.div_coe h, ← EReal.coe_mul, mul_one_div]

/-- A row sum of exponentials is positive (each term is, and the row is not empty), hence nonzero. -/
theorem expsum_ne_zero (g : Fin 4096 → ℝ) : (∑ j : Fin 4096, Real.exp (g j)) ≠ 0 :=
  ne_of_gt (Finset.sum_pos (fun j _ => Real.exp_pos (g j)) Finset.univ_nonempty)

theorem outR_coe (x : Fin 8 → Fin 128 → Fin 4096 → ℝ) (wq wk : Fin 64 → Fin 128 → ℝ) (wv : Fin 128 → Fin 128 → ℝ)
    (b : Fin 8) (f : Fin 128) (i : Fin 4096) :
    outR (fun b d n => ((x b d n : ℝ) : EReal)) (fun k d => ((wq k d : ℝ) : EReal)) (fun k d => ((wk k d : ℝ) : EReal))
      (fun u d => ((wv u d : ℝ) : EReal)) b f i = ((Re.outR x wq wk wv b f i : ℝ) : EReal) := by
  unfold outR Re.outR
  dsimp only
  -- The projections, the scores (1/8 is a real), the row maximum, the shifted scores, the exponentials and the
  -- row sum (0 + S = S): every layer is the embedding of its real counterpart.
  simp only [c8_eq, ← EReal.coe_mul, coe_sum, rowMax_coe, max_negInf_coe, ← EReal.coe_sub, Ideal.exp_coe,
    zeroW_eq, ← EReal.coe_add, zero_add]
  -- The row sum is a nonzero real, so each weight is the embedding of the real quotient; the weighted sum of the
  -- values and the residual term follow by additivity and multiplicativity of the embedding.
  simp only [div_coe_coe _ (expsum_ne_zero _), ← EReal.coe_mul, coe_sum, ← EReal.coe_add]

end Cert.Attn

end
-- ==== Proof.Attn.Law.lean ====
/-
  On finite inputs the two arrangements over the extended reals agree: each is the coercion of its real form, and
  the real forms are equal.
-/
import proofs.«409588_j78812649881770_3_alg».proof.Proof.Attn.LawK
import proofs.«409588_j78812649881770_3_alg».proof.Proof.Attn.LawR

noncomputable section

namespace Cert.Attn

theorem law {x : Fin 8 → Fin 128 → Fin 4096 → EReal} {wq wk : Fin 64 → Fin 128 → EReal} {wv : Fin 128 → Fin 128 → EReal}
    (h : Finite x wq wk wv) (b : Fin 8) (f : Fin 128) (i : Fin 4096) : outK x wq wk wv b f i = outR x wq wk wv b f i := by
  choose xr hx using h.x
  choose qr hq using h.wq
  choose kr hk using h.wk
  choose vr hv using h.wv
  obtain rfl : x = fun b d n => ((xr b d n : ℝ) : EReal) := funext fun b => funext fun d => funext fun n => hx b d n
  obtain rfl : wq = fun k d => ((qr k d : ℝ) : EReal) := funext fun k => funext fun d => hq k d
  obtain rfl : wk = fun k d => ((kr k d : ℝ) : EReal) := funext fun k => funext fun d => hk k d
  obtain rfl : wv = fun u d => ((vr u d : ℝ) : EReal) := funext fun u => funext fun d => hv u d
  rw [outK_coe, outR_coe, Re.real_law]

end Cert.Attn

end
-- ==== Proof.Attn.Finite.lean ====
/-
  The precondition says every entry of each of the four inputs has absolute value below +∞; over the extended reals
  (where a junk value reads −∞) that makes every entry a real number.
-/
import proofs.«409588_j78812649881770_3_alg».proof.Pre_finite_inputs
import proofs.«409588_j78812649881770_3_alg».proof.Proof.Attn.Spec
import Idealize.ShloMosaic.Lib.ReduceAll
import Idealize.ShloMosaic.Lib.ValueIdx

noncomputable section

namespace Cert.Attn

open Idealize.ShloMosaic Idealize.ShloMosaic.ValueIdx Cert.Pre_finite_inputs

variable [Cert.Pre_finite_inputs.Facts]

/-- The rank-0 shape has exactly one index: a function out of the empty set of axes. -/
instance : Subsingleton S_.Idx := ⟨fun a b => funext fun d => d.elim0⟩

/-- The word 0x7F800000 (sign 0, exponent all ones, fraction 0) denotes +∞. -/
theorem posInfWord_eq_top : Ideal.ofBits .f32 0x7F800000#32 = (⊤ : EReal) := by
  simp [Ideal.ofBits, Ideal.ieee]

/-- An extended real whose absolute value max x (−x) lies strictly below +∞ is a real number: at x = −∞ the
    negation is +∞, at x = +∞ x itself is, and in both cases the maximum is +∞, which is not below itself. -/
theorem real_of_abs_lt_top (x : EReal) (h : max x (-x) < ⊤) : ∃ r : ℝ, x = (r : EReal) := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The ordered "less than" comparison of two extended reals gives the word 1 exactly when the first is below the second. -/
theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]
    rfl
  rw [h0] at h
  exact absurd h (by decide)

/-- One input's test, at any shape: if the conjunction over ALL entries of "|entry| < +∞" is the word 1, every entry
    is a real number. The conjunction being 1 makes each compared entry 1; the comparison at an entry x reads
    max x (−x) < +∞; and that leaves only the reals. -/
theorem real_of_all {s : Shape} {axes : List (Fin s.rank)} (a : FVec Ideal s .f32)
    (dims : Fin S_.rank → Fin s.rank) (hb : S_.BroadcastsInDim s dims) (hr : s.ReducesTo axes S_) (h0 : 0 < S_.numel)
    (j : S_.Idx)
    (e : Host.reduce IntOp.andi (cmpf .olt (Host.absf a) (broadcastInDim s dims hb (constant S_ .f32 0x7F800000#32)))
        (constantI S_ 1 1#1) hr h0 j = 1#1)
    (i : s.Idx) : ∃ r : ℝ, a i = (r : EReal) := by
  have hi := Host.reduce_andi_all _ _ hr h0 j e i
  have hc : Ideal.cmp .olt (max (a i) (-(a i))) (Ideal.ofBits .f32 0x7F800000#32) = 1#1 := hi
  have hlt := lt_of_cmp_olt hc
  rw [posInfWord_eq_top] at hlt
  exact real_of_abs_lt_top _ hlt

theorem finite_of_pre (a0 : FVec Ideal S8x128x4096 .f32) (a1 a2 : FVec Ideal S64x128 .f32) (a3 : FVec Ideal S128x128 .f32)
    (h : Cert.Pre_finite_inputs.fn (F := Ideal) a0 a1 a2 a3 = fun _ => 1#1) :
    Finite (fun b d n => a0 (ix3 b d n)) (fun k d => a1 (ix2 k d)) (fun k d => a2 (ix2 k d)) (fun u d => a3 (ix2 u d)) := by
  -- the printed function at its one index: the conjunction of the four inputs' tests
  have hv := congrFun h ValueIdx.ix0
  dsimp only [Cert.Pre_finite_inputs.fn, Cert.Pre_finite_inputs.fn_part1] at hv
  obtain ⟨h012, h3⟩ := IntOp.andi_eq_one.1 hv
  obtain ⟨h01, h2⟩ := IntOp.andi_eq_one.1 h012
  obtain ⟨h0, h1⟩ := IntOp.andi_eq_one.1 h01
  exact ⟨fun b d n => real_of_all a0 _ _ _ _ _ h0 _, fun k d => real_of_all a1 _ _ _ _ _ h1 _,
    fun k d => real_of_all a2 _ _ _ _ _ h2 _, fun u d => real_of_all a3 _ _ _ _ _ h3 _⟩

end Cert.Attn

end
-- ==== Proof.lean ====
/-
  Single-head attention with a residual: the kernel computes it in two calls — one projects each sequence's
  features by a stacked weight (the query rows pre-scaled by 1/8) into queries, keys and values; the other, per tile
  of 1024 query positions, forms the scores against all 4096 keys, the exponentials of their differences from the row
  maximum, and the value-weighted sums, and normalises by the row sum AFTER summing — against a reference that
  scales the scores, normalises the exponentials first and sums afterwards.

  Frames: each program runs to its end from any memory, faults nowhere and leaves its four argument arrays as
  launched. For the two kernel programs this is the run of @main through its host operations and its two calls, every
  unscoped buffer held at known contents between them; for the reference it is its run as a sequence of host
  operations.
  Preservation: the one rewrite of the idealization replaces a narrowing to bf16 followed by a widening back with the
  identity, which is what that pair is on extended reals.
  Equivalence: on finite inputs every quantity is a real number; the scale 1/8 moves out of the query projection by
  distributivity, the two row maxima and the two families of exponentials are then the same, the row sum of
  exponentials is positive, so dividing each weight by it before the weighted sum is multiplying the sum by its
  reciprocal afterwards; and addition commutes.
-/
import proofs.«409588_j78812649881770_3_alg».proof.Defs
import proofs.«409588_j78812649881770_3_alg».proof.Proof.Gen.Kernel
import proofs.«409588_j78812649881770_3_alg».proof.Proof.Gen.KernelIdeal
import proofs.«409588_j78812649881770_3_alg».proof.Proof.Gen.ReferenceIdeal
import proofs.«409588_j78812649881770_3_alg».proof.Proof.Gen.Pre_finite_inputs
import proofs.«409588_j78812649881770_3_alg».proof.Proof.Gen.ReferenceIdeal.Run
import proofs.«409588_j78812649881770_3_alg».proof.Proof.Gen.ReferenceIdeal.Read
import proofs.«409588_j78812649881770_3_alg».proof.Proof.K.Run
import proofs.«409588_j78812649881770_3_alg».proof.Proof.KI.Run
import proofs.«409588_j78812649881770_3_alg».proof.Proof.KI.KernelIsSpec
import proofs.«409588_j78812649881770_3_alg».proof.Proof.Ref.RefIsSpec
import proofs.«409588_j78812649881770_3_alg».proof.Proof.Attn.Law
import proofs.«409588_j78812649881770_3_alg».proof.Proof.Attn.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: narrowing to bf16 and widening back is the identity on extended reals. -/
theorem preserves : Cert.preserves_Kernel_KernelIdeal :=
  IdealRules.truncf_extf.statement Cert.KernelIdeal.S1024x4096 .f32 .bf16

/-- On finite inputs the idealized kernel's result array and the idealized reference's are equal element by element:
    the first is the specification's first arrangement of the inputs, the second its second arrangement, and on real
    inputs the two arrangements agree. -/
theorem algebraic : Cert.algebraic_KernelIdeal_ReferenceIdeal := by
  intro m ρ m' ρ' hpre hagree
  refine ⟨fun c => Cert.KernelIdeal.Hand.out1 (Cert.KernelIdeal.Hand.V2 m ρ) c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  funext j
  obtain ⟨b, f, i, rfl⟩ : ∃ (b : Fin 8) (f : Fin 128) (i : Fin 4096), j = ix3 b f i := ⟨j 0, j 1, j 2, eq_ix3 j⟩
  rw [Cert.ReferenceIdeal.RefValue.ref_apply]
  refine ((Cert.Attn.law (Cert.Attn.finite_of_pre _ _ _ _ (hpre c)) b f i).symm).trans ?_
  exact (Cert.KernelIdeal.Hand.result_apply m ρ c b f i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
